-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x16x24x24 : Shape := ⟨5, ![4, 64, 16, 24, 24]⟩
abbrev S4x64x24x24 : Shape := ⟨4, ![4, 64, 24, 24]⟩
abbrev S4x512x16x24x24 : Shape := ⟨5, ![4, 512, 16, 24, 24]⟩
abbrev S4x512x24x24 : Shape := ⟨4, ![4, 512, 24, 24]⟩
abbrev S_ : Shape := ⟨0, ![]⟩

class Facts : Prop where
  bcast_S_S4x64x16x24x24 : S_.BroadcastsInDim S4x64x16x24x24 (![] : Fin 0 → Fin S4x64x16x24x24.rank)
  reducesTo_S4x64x16x24x24_S_d0_1_2_3_4 : S4x64x16x24x24.ReducesTo [0, 1, 2, 3, 4] S_
  h_S_ : 0 < S_.numel
  bcast_S_S4x64x24x24 : S_.BroadcastsInDim S4x64x24x24 (![] : Fin 0 → Fin S4x64x24x24.rank)
  reducesTo_S4x64x24x24_S_d0_1_2_3 : S4x64x24x24.ReducesTo [0, 1, 2, 3] S_
  bcast_S_S4x512x16x24x24 : S_.BroadcastsInDim S4x512x16x24x24 (![] : Fin 0 → Fin S4x512x16x24x24.rank)
  reducesTo_S4x512x16x24x24_S_d0_1_2_3_4 : S4x512x16x24x24.ReducesTo [0, 1, 2, 3, 4] S_
  bcast_S_S4x512x24x24 : S_.BroadcastsInDim S4x512x24x24 (![] : Fin 0 → Fin S4x512x24x24.rank)
  reducesTo_S4x512x24x24_S_d0_1_2_3 : S4x512x24x24.ReducesTo [0, 1, 2, 3] S_

variable [Facts]

def fn_part1 {F : FTy → Type} [FloatOps F] (main_v13 : IVec S_ 1) (main_v16 : IVec S4x512x24x24 1) : IVec S_ 1 :=
  let main_c_5 : IVec S_ 1 := constantI S_ 1 1#1
  let main_v17 : IVec S_ 1 := (fun x v => Host.reduce IntOp.andi x v reducesTo_S4x512x24x24_S_d0_1_2_3 h_S_) main_v16 main_c_5
  let main_v18 : IVec S_ 1 := andi main_v13 main_v17
  main_v18

def fn {F : FTy → Type} [FloatOps F] (main_arg0 : FVec F S4x64x16x24x24 .f32) (main_arg1 : FVec F S4x64x24x24 .f32) (main_arg2 : FVec F S4x512x16x24x24 .f32) (main_arg3 : FVec F S4x512x24x24 .f32) : IVec S_ 1 :=
  let main_v0 : FVec F S4x64x16x24x24 .f32 := Host.absf main_arg0
  let main_cst : FVec F S_ .f32 := constant S_ .f32 0x7F800000#32
  let main_v1 : FVec F S4x64x16x24x24 .f32 := broadcastInDim S4x64x16x24x24 ![] bcast_S_S4x64x16x24x24 main_cst
  let main_v2 : IVec S4x64x16x24x24 1 := cmpf .olt main_v0 main_v1
  let main_c : IVec S_ 1 := constantI S_ 1 1#1
  let main_v3 : IVec S_ 1 := (fun x v => Host.reduce IntOp.andi x v reducesTo_S4x64x16x24x24_S_d0_1_2_3_4 h_S_) main_v2 main_c
  let main_v4 : FVec F S4x64x24x24 .f32 := Host.absf main_arg1
  let main_cst_0 : FVec F S_ .f32 := constant S_ .f32 0x7F800000#32
  let main_v5 : FVec F S4x64x24x24 .f32 := broadcastInDim S4x64x24x24 ![] bcast_S_S4x64x24x24 main_cst_0
  let main_v6 : IVec S4x64x24x24 1 := cmpf .olt main_v4 main_v5
  let main_c_1 : IVec S_ 1 := constantI S_ 1 1#1
  let main_v7 : IVec S_ 1 := (fun x v => Host.reduce IntOp.andi x v reducesTo_S4x64x24x24_S_d0_1_2_3 h_S_) main_v6 main_c_1
  let main_v8 : IVec S_ 1 := andi main_v3 main_v7
  let main_v9 : FVec F S4x512x16x24x24 .f32 := Host.absf main_arg2
  let main_cst_2 : FVec F S_ .f32 := constant S_ .f32 0x7F800000#32
  let main_v10 : FVec F S4x512x16x24x24 .f32 := broadcastInDim S4x512x16x24x24 ![] bcast_S_S4x512x16x24x24 main_cst_2
  let main_v11 : IVec S4x512x16x24x24 1 := cmpf .olt main_v9 main_v10
  let main_c_3 : IVec S_ 1 := constantI S_ 1 1#1
  let main_v12 : IVec S_ 1 := (fun x v => Host.reduce IntOp.andi x v reducesTo_S4x512x16x24x24_S_d0_1_2_3_4 h_S_) main_v11 main_c_3
  let main_v13 : IVec S_ 1 := andi main_v8 main_v12
  let main_v14 : FVec F S4x512x24x24 .f32 := Host.absf main_arg3
  let main_cst_4 : FVec F S_ .f32 := constant S_ .f32 0x7F800000#32
  let main_v15 : FVec F S4x512x24x24 .f32 := broadcastInDim S4x512x24x24 ![] bcast_S_S4x512x24x24 main_cst_4
  let main_v16 : IVec S4x512x24x24 1 := cmpf .olt main_v14 main_v15
  fn_part1 (F := F) main_v13 main_v16
-- ==== Kernel.lean ====
abbrev S4x64x16x24x24 : Shape := ⟨5, ![4, 64, 16, 24, 24]⟩
abbrev S4x64x24x24 : Shape := ⟨4, ![4, 64, 24, 24]⟩
abbrev S4x512x16x24x24 : Shape := ⟨5, ![4, 512, 16, 24, 24]⟩
abbrev S4x512x24x24 : Shape := ⟨4, ![4, 512, 24, 24]⟩
abbrev S4x64x9216 : Shape := ⟨3, ![4, 64, 9216]⟩
abbrev S4x64x576 : Shape := ⟨3, ![4, 64, 576]⟩
abbrev S4x512x9216 : Shape := ⟨3, ![4, 512, 9216]⟩
abbrev S4x512x576 : Shape := ⟨3, ![4, 512, 576]⟩
abbrev S4x1024x576 : Shape := ⟨3, ![4, 1024, 576]⟩
abbrev S4x1024x24x24 : Shape := ⟨4, ![4, 1024, 24, 24]⟩
abbrev S1x64x2304 : Shape := ⟨3, ![1, 64, 2304]⟩
abbrev S1x64x576 : Shape := ⟨3, ![1, 64, 576]⟩
abbrev S1x512x2304 : Shape := ⟨3, ![1, 512, 2304]⟩
abbrev S1x512x576 : Shape := ⟨3, ![1, 512, 576]⟩
abbrev S1x1024x576 : Shape := ⟨3, ![1, 1024, 576]⟩
abbrev S1x576 : Shape := ⟨2, ![1, 576]⟩
abbrev S512x576 : Shape := ⟨2, ![512, 576]⟩
abbrev S64x2304 : Shape := ⟨2, ![64, 2304]⟩
abbrev S64x576 : Shape := ⟨2, ![64, 576]⟩
abbrev S64x1 : Shape := ⟨2, ![64, 1]⟩
abbrev S2304x1 : Shape := ⟨2, ![2304, 1]⟩
abbrev S2304x576 : Shape := ⟨2, ![2304, 576]⟩
abbrev S576 : Shape := ⟨1, ![576]⟩
abbrev S512x2304 : Shape := ⟨2, ![512, 2304]⟩

abbrev nBuf : Space → Nat
  | .hbm => 10
  | .vmem => 13
  | .smem => 0
  | _ => 0

abbrev bufTy : (tb : Table) → Fin (tcTables nBuf tb) → BufTy
  | .hbm, ⟨0, _⟩ => ⟨S4x64x16x24x24, .f32⟩
  | .hbm, ⟨1, _⟩ => ⟨S4x64x24x24, .f32⟩
  | .hbm, ⟨2, _⟩ => ⟨S4x512x16x24x24, .f32⟩
  | .hbm, ⟨3, _⟩ => ⟨S4x512x24x24, .f32⟩
  | .hbm, ⟨4, _⟩ => ⟨S4x64x9216, .f32⟩
  | .hbm, ⟨5, _⟩ => ⟨S4x64x576, .f32⟩
  | .hbm, ⟨6, _⟩ => ⟨S4x512x9216, .f32⟩
  | .hbm, ⟨7, _⟩ => ⟨S4x512x576, .f32⟩
  | .hbm, ⟨8, _⟩ => ⟨S4x1024x576, .f32⟩
  | .hbm, ⟨9, _⟩ => ⟨S4x1024x24x24, .f32⟩
  | .local _ .vmem, ⟨0, _⟩ => ⟨S1x64x2304, .f32⟩
  | .local _ .vmem, ⟨1, _⟩ => ⟨S1x64x2304, .f32⟩
  | .local _ .vmem, ⟨2, _⟩ => ⟨S1x64x576, .f32⟩
  | .local _ .vmem, ⟨3, _⟩ => ⟨S1x64x576, .f32⟩
  | .local _ .vmem, ⟨4, _⟩ => ⟨S1x512x2304, .f32⟩
  | .local _ .vmem, ⟨5, _⟩ => ⟨S1x512x2304, .f32⟩
  | .local _ .vmem, ⟨6, _⟩ => ⟨S1x512x576, .f32⟩
  | .local _ .vmem, ⟨7, _⟩ => ⟨S1x512x576, .f32⟩
  | .local _ .vmem, ⟨8, _⟩ => ⟨S1x1024x576, .f32⟩
  | .local _ .vmem, ⟨9, _⟩ => ⟨S1x1024x576, .f32⟩
  | .local _ .vmem, ⟨10, _⟩ => ⟨S1x576, .f32⟩
  | .local _ .vmem, ⟨11, _⟩ => ⟨S1x576, .f32⟩
  | .local _ .vmem, ⟨12, _⟩ => ⟨S512x576, .f32⟩
  | _, _ => ⟨S4x64x16x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_28 : BitVec 32 := 0#32
  let v49 : BitVec 1 := Scalar.cmpi .ne v48 c0_i32_28
  v49

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x64x16x24x24_S4x64x9216 : S4x64x16x24x24.ShapeCasts S4x64x9216
  shapeCasts_S4x64x24x24_S4x64x576 : S4x64x24x24.ShapeCasts S4x64x576
  shapeCasts_S4x512x16x24x24_S4x512x9216 : S4x512x16x24x24.ShapeCasts S4x512x9216
  shapeCasts_S4x512x24x24_S4x512x576 : S4x512x24x24.ShapeCasts S4x512x576
  shapeCasts_S4x1024x576_S4x1024x24x24 : S4x1024x576.ShapeCasts S4x1024x24x24
  inb_S1x576_S1x576_0_0 : ∀ a, (![0, 0] : Fin 2 → Nat) a + S1x576.size a ≤ S1x576.size a
  h_S1x576 : 0 < S1x576.numel
  shapeCasts_S1x576_S1x576 : S1x576.ShapeCasts S1x576
  inb_S512x576_S512x576_0_0 : ∀ a, (![0, 0] : Fin 2 → Nat) a + S512x576.size a ≤ S512x576.size a
  h_S512x576 : 0 < S512x576.numel
  shapeCasts_S512x576_S512x576 : S512x576.ShapeCasts S512x576
  inb_S1x64x2304_S1x64x2304_0_0_0 : ∀ a, (![0, 0, 0] : Fin 3 → Nat) a + S1x64x2304.size a ≤ S1x64x2304.size a
  h_S1x64x2304 : 0 < S1x64x2304.numel
  shapeCasts_S1x64x2304_S64x2304 : S1x64x2304.ShapeCasts S64x2304
  inb_S1x64x576_S1x64x576_0_0_0 : ∀ a, (![0, 0, 0] : Fin 3 → Nat) a + S1x64x576.size a ≤ S1x64x576.size a
  h_S1x64x576 : 0 < S1x64x576.numel
  shapeCasts_S1x64x576_S64x576 : S1x64x576.ShapeCasts S64x576
  broadcasts_S2304x1_S2304x576 : S2304x1.Broadcasts S2304x576
  reduces_S2304x576_S576 : S2304x576.Reduces [0] S576
  shapeCasts_S576_S1x576 : S576.ShapeCasts S1x576
  broadcasts_S1x576_S2304x576 : S1x576.Broadcasts S2304x576
  inb_S1x512x2304_S1x512x2304_0_0_0 : ∀ a, (![0, 0, 0] : Fin 3 → Nat) a + S1x512x2304.size a ≤ S1x512x2304.size a
  h_S1x512x2304 : 0 < S1x512x2304.numel
  shapeCasts_S1x512x2304_S512x2304 : S1x512x2304.ShapeCasts S512x2304
  broadcasts_S1x576_S512x576 : S1x576.Broadcasts S512x576
  inb_S1x1024x576_S1x512x576_0_0_0 : ∀ a, (![0, 0, 0] : Fin 3 → Nat) a + S1x512x576.size a ≤ S1x1024x576.size a
  h_S1x512x576 : 0 < S1x512x576.numel
  shapeCasts_S1x512x576_S512x576 : S1x512x576.ShapeCasts S512x576
  shapeCasts_S512x576_S1x512x576 : S512x576.ShapeCasts S1x512x576
  inb_S1x512x576_S1x512x576_0_0_0 : ∀ a, (![0, 0, 0] : Fin 3 → Nat) a + S1x512x576.size a ≤ S1x512x576.size a
  inb_S1x1024x576_S1x512x576_0_512_0 : ∀ a, (![0, 512, 0] : Fin 3 → Nat) a + S1x512x576.size a ≤ S1x1024x576.size a
  dot_S64x2304_S64x1_S2304x1_0_0_1_1_n_n_wf : DotDims.WF S64x2304 S64x1 S2304x1 [0] [0] [1] [1] [] []
  dot_S64x2304_S64x576_S2304x576_0_0_1_1_n_n_wf : DotDims.WF S64x2304 S64x576 S2304x576 [0] [0] [1] [1] [] []
  dot_S512x2304_S2304x576_S512x576_1_0_0_1_n_n_wf : DotDims.WF S512x2304 S2304x576 S512x576 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2304.size a ≤ S4x64x9216.size a
  hwx0_0 : ∀ i : grid0.Coords, EltTy.bits .f32 = 32 ∨ (Rect.block (s := S4x64x9216) S1x64x2304.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x576.size a ≤ S4x64x576.size a
  hwx0_1 : ∀ i : grid0.Coords, EltTy.bits .f32 = 32 ∨ (Rect.block (s := S4x64x576) S1x64x576.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2304.size a ≤ S4x512x9216.size a
  hwx0_2 : ∀ i : grid0.Coords, EltTy.bits .f32 = 32 ∨ (Rect.block (s := S4x512x9216) S1x512x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x576.size a ≤ S4x512x576.size a
  hwx0_3 : ∀ i : grid0.Coords, EltTy.bits .f32 = 32 ∨ (Rect.block (s := S4x512x576) S1x512x576.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x576.size a ≤ S4x1024x576.size a
  hwx0_4 : ∀ i : grid0.Coords, EltTy.bits .f32 = 32 ∨ (Rect.block (s := S4x1024x576) S1x1024x576.size (cc0_transform_4 i) (hinb0_4 i)).WholeWords (EltTy.packing .f32)

variable [Facts₀]

def dot_S64x2304_S64x1_S2304x1_0_0_1_1_n_n : DotDims S64x2304 S64x1 S2304x1 where
  lhsContracting := [0]
  rhsContracting := [0]
  lhsNonContracting := [1]
  rhsNonContracting := [1]
  lhsBatch := []
  rhsBatch := []
  wf := dot_S64x2304_S64x1_S2304x1_0_0_1_1_n_n_wf
def dot_S64x2304_S64x576_S2304x576_0_0_1_1_n_n : DotDims S64x2304 S64x576 S2304x576 where
  lhsContracting := [0]
  rhsContracting := [0]
  lhsNonContracting := [1]
  rhsNonContracting := [1]
  lhsBatch := []
  rhsBatch := []
  wf := dot_S64x2304_S64x576_S2304x576_0_0_1_1_n_n_wf
def dot_S512x2304_S2304x576_S512x576_1_0_0_1_n_n : DotDims S512x2304 S2304x576 S512x576 where
  lhsContracting := [1]
  rhsContracting := [0]
  lhsNonContracting := [0]
  rhsNonContracting := [1]
  lhsBatch := []
  rhsBatch := []
  wf := dot_S512x2304_S2304x576_S512x576_1_0_0_1_n_n_wf

abbrev win0_0 : Pipeline.Window sig grid0 :=
  Pipeline.Window.ofSpec (Memref.whole main_call0_v0) S1x64x2304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x64x576.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x512x2304.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1x512x576.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S1x1024x576.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x64x16x24x24 : Shape := ⟨5, ![4, 64, 16, 24, 24]⟩
abbrev S4x64x24x24 : Shape := ⟨4, ![4, 64, 24, 24]⟩
abbrev S4x512x16x24x24 : Shape := ⟨5, ![4, 512, 16, 24, 24]⟩
abbrev S4x512x24x24 : Shape := ⟨4, ![4, 512, 24, 24]⟩
abbrev S4x64x9216 : Shape := ⟨3, ![4, 64, 9216]⟩
abbrev S4x64x576 : Shape := ⟨3, ![4, 64, 576]⟩
abbrev S_ : Shape := ⟨0, ![]⟩
abbrev S4x9216 : Shape := ⟨2, ![4, 9216]⟩
abbrev S4x9216x1 : Shape := ⟨3, ![4, 9216, 1]⟩
abbrev S4x9216x576 : Shape := ⟨3, ![4, 9216, 576]⟩
abbrev S4x576 : Shape := ⟨2, ![4, 576]⟩
abbrev S4x1x576 : Shape := ⟨3, ![4, 1, 576]⟩
abbrev S4x512x9216 : Shape := ⟨3, ![4, 512, 9216]⟩
abbrev S4x512x576 : Shape := ⟨3, ![4, 512, 576]⟩
abbrev S4x1024x24x24 : Shape := ⟨4, ![4, 1024, 24, 24]⟩

abbrev nBuf : Space → Nat
  | .hbm => 34
  | .vmem => 0
  | .smem => 0
  | _ => 0

abbrev bufTy : (tb : Table) → Fin (tcTables nBuf tb) → BufTy
  | .hbm, ⟨0, _⟩ => ⟨S4x64x16x24x24, .f32⟩
  | .hbm, ⟨1, _⟩ => ⟨S4x64x24x24, .f32⟩
  | .hbm, ⟨2, _⟩ => ⟨S4x512x16x24x24, .f32⟩
  | .hbm, ⟨3, _⟩ => ⟨S4x512x24x24, .f32⟩
  | .hbm, ⟨4, _⟩ => ⟨S4x64x9216, .f32⟩
  | .hbm, ⟨5, _⟩ => ⟨S4x64x576, .f32⟩
  | .hbm, ⟨6, _⟩ => ⟨S4x64x9216, .f32⟩
  | .hbm, ⟨7, _⟩ => ⟨S_, .f32⟩
  | .hbm, ⟨8, _⟩ => ⟨S4x9216, .f32⟩
  | .hbm, ⟨9, _⟩ => ⟨S4x9216x1, .f32⟩
  | .hbm, ⟨10, _⟩ => ⟨S4x9216x576, .f32⟩
  | .hbm, ⟨11, _⟩ => ⟨S_, .f32⟩
  | .hbm, ⟨12, _⟩ => ⟨S4x9216x576, .f32⟩
  | .hbm, ⟨13, _⟩ => ⟨S4x9216x576, .f32⟩
  | .hbm, ⟨14, _⟩ => ⟨S4x9216x576, .f32⟩
  | .hbm, ⟨15, _⟩ => ⟨S4x9216x576, .f32⟩
  | .hbm, ⟨16, _⟩ => ⟨S_, .f32⟩
  | .hbm, ⟨17, _⟩ => ⟨S4x9216x576, .f32⟩
  | .hbm, ⟨18, _⟩ => ⟨S4x9216x576, .f32⟩
  | .hbm, ⟨19, _⟩ => ⟨S_, .f32⟩
  | .hbm, ⟨20, _⟩ => ⟨S4x576, .f32⟩
  | .hbm, ⟨21, _⟩ => ⟨S4x1x576, .f32⟩
  | .hbm, ⟨22, _⟩ => ⟨S4x9216x576, .f32⟩
  | .hbm, ⟨23, _⟩ => ⟨S4x9216x576, .f32⟩
  | .hbm, ⟨24, _⟩ => ⟨S4x9216x576, .f32⟩
  | .hbm, ⟨25, _⟩ => ⟨S_, .f32⟩
  | .hbm, ⟨26, _⟩ => ⟨S4x576, .f32⟩
  | .hbm, ⟨27, _⟩ => ⟨S4x1x576, .f32⟩
  | .hbm, ⟨28, _⟩ => ⟨S4x9216x576, .f32⟩
  | .hbm, ⟨29, _⟩ => ⟨S4x9216x576, .f32⟩
  | .hbm, ⟨30, _⟩ => ⟨S4x512x9216, .f32⟩
  | .hbm, ⟨31, _⟩ => ⟨S4x512x576, .f32⟩
  | .hbm, ⟨32, _⟩ => ⟨S4x512x24x24, .f32⟩
  | .hbm, ⟨33, _⟩ => ⟨S4x1024x24x24, .f32⟩
  | _, _ => ⟨S4x64x16x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  shapeCasts_S4x64x16x24x24_S4x64x9216 : S4x64x16x24x24.ShapeCasts S4x64x9216
  shapeCasts_S4x64x24x24_S4x64x576 : S4x64x24x24.ShapeCasts S4x64x576
  reducesTo_S4x64x9216_S4x9216_d1 : S4x64x9216.ReducesTo [1] S4x9216
  h_S_ : 0 < S_.numel
  bcast_S4x9216_S4x9216x1_0_1 : S4x9216.BroadcastsInDim S4x9216x1 (![0, 1] : Fin 2 → Fin S4x9216x1.rank)
  bcast_S_S4x9216x576 : S_.BroadcastsInDim S4x9216x576 (![] : Fin 0 → Fin S4x9216x576.rank)
  bcast_S4x9216x1_S4x9216x576_0_1_2 : S4x9216x1.BroadcastsInDim S4x9216x576 (![0, 1, 2] : Fin 3 → Fin S4x9216x576.rank)
  reducesTo_S4x9216x576_S4x576_d1 : S4x9216x576.ReducesTo [1] S4x576
  bcast_S4x576_S4x1x576_0_2 : S4x576.BroadcastsInDim S4x1x576 (![0, 2] : Fin 2 → Fin S4x1x576.rank)
  bcast_S4x1x576_S4x9216x576_0_1_2 : S4x1x576.BroadcastsInDim S4x9216x576 (![0, 1, 2] : Fin 3 → Fin S4x9216x576.rank)
  shapeCasts_S4x512x16x24x24_S4x512x9216 : S4x512x16x24x24.ShapeCasts S4x512x9216
  shapeCasts_S4x512x576_S4x512x24x24 : S4x512x576.ShapeCasts S4x512x24x24
  concatenates_S4x512x24x24_S4x512x24x24_S4x1024x24x24_d1 : Shape.Concatenates [S4x512x24x24, S4x512x24x24] S4x1024x24x24 1
  dot_S4x64x9216_S4x64x576_S4x9216x576_1_1_2_2_0_0_wf : DotDims.WF S4x64x9216 S4x64x576 S4x9216x576 [1] [1] [2] [2] [0] [0]
  dot_S4x512x9216_S4x9216x576_S4x512x576_2_1_1_2_0_0_wf : DotDims.WF S4x512x9216 S4x9216x576 S4x512x576 [2] [1] [1] [2] [0] [0]

variable [Facts₀]

def dot_S4x64x9216_S4x64x576_S4x9216x576_1_1_2_2_0_0 : DotDims S4x64x9216 S4x64x576 S4x9216x576 where
  lhsContracting := [1]
  rhsContracting := [1]
  lhsNonContracting := [2]
  rhsNonContracting := [2]
  lhsBatch := [0]
  rhsBatch := [0]
  wf := dot_S4x64x9216_S4x64x576_S4x9216x576_1_1_2_2_0_0_wf
def dot_S4x512x9216_S4x9216x576_S4x512x576_2_1_1_2_0_0 : DotDims S4x512x9216 S4x9216x576 S4x512x576 where
  lhsContracting := [2]
  rhsContracting := [1]
  lhsNonContracting := [1]
  rhsNonContracting := [2]
  lhsBatch := [0]
  rhsBatch := [0]
  wf := dot_S4x512x9216_S4x9216x576_S4x512x576_2_1_1_2_0_0_wf

class Facts : Prop extends Facts₀ where

variable [Facts]
-- ==== Proof.Layout.lean ====
/-
  Index bookkeeping shared by both programs' value proofs: the result has 1024 channels, the first 512 the
  read-out and the last 512 the query values copied; a pixel (y, x) of the 24 × 24 image is token 24·y + x of
  the 576 flattened ones.
-/
import Mathlib.Data.Fin.Basic
import Mathlib.Tactic.Linarith

namespace Cert.Layout

/-- Read-out channel `ch` among the result's 1024 channels. -/
def topCh (ch : Fin 512) : Fin 1024 := ⟨ch.val, by have := ch.isLt; omega⟩
/-- Copied query-value channel `ch` among the result's 1024 channels. -/
def botCh (ch : Fin 512) : Fin 1024 := ⟨512 + ch.val, by have := ch.isLt; omega⟩
/-- Pixel (y, x) as a flattened token. -/
def pix (y x : Fin 24) : Fin 576 := ⟨24 * y.val + x.val, by have := y.isLt; have := x.isLt; omega⟩

@[simp] theorem topCh_val (ch : Fin 512) : (topCh ch).val = ch.val := rfl
@[simp] theorem botCh_val (ch : Fin 512) : (botCh ch).val = 512 + ch.val := rfl
@[simp] theorem pix_val (y x : Fin 24) : (pix y x).val = 24 * y.val + x.val := rfl

/-- Every one of the 1024 channels is a read-out channel or a copied one. -/
theorem ch_cases (k : Fin 1024) : (∃ ch : Fin 512, k = topCh ch) ∨ (∃ ch : Fin 512, k = botCh ch) := by
  by_cases h : k.val < 512
  · exact Or.inl ⟨⟨k.val, h⟩, Fin.ext rfl⟩
  · exact Or.inr ⟨⟨k.val - 512, by have := k.isLt; omega⟩, Fin.ext (by simp only [botCh_val]; omega)⟩

end Cert.Layout
-- ==== Proof.Pieces.lean ====
/-
  What each control case of the streaming step leaves behind, as plain terms of its inputs.

  A grid step is in one of three cases: the first chunk of a batch (the carried state is reset first), a middle
  chunk, the last chunk (the result block is written as well). In every case the three carried buffers end holding
    the new maximum        of the chunk's keys, the queries and the maximum carried in,
    the new denominator    of those and the denominator carried in,
    the new numerator      of the chunk's weights, the rescale factor, the chunk's values and the numerator carried in,
  where on the first chunk "carried in" means the reset values (−∞, 0, 0). On the last chunk the result block's upper
  512 rows hold numerator over denominator (both just updated) and its lower 512 rows the query values.
-/
import proofs.«164901_g25348896981519_cont_9to1_2299_2_alg».proof.Proof.Gen.KernelIdeal.Frame
import proofs.«164901_g25348896981519_cont_9to1_2299_2_alg».proof.Proof.Layout
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen Idealize.ShloMosaic.ValueIdx Cert.Layout

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A middle chunk -/

/-- A middle chunk leaves the new maximum. -/
theorem soutB_0 (c : Dev nD) (i : grid0.Coords) (arg2 : Memref sig .tc .vmem S1x64x2304 .f32) (harg2 : arg2.IsWhole) (arg3 : Memref sig .tc .vmem S1x64x576 .f32) (harg3 : arg3.IsWhole) (arg4 : Memref sig .tc .vmem S1x512x2304 .f32) (harg4 : arg4.IsWhole) (arg5 : Memref sig .tc .vmem S1x512x576 .f32) (harg5 : arg5.IsWhole) (arg6 : Memref sig .tc .vmem S1x1024x576 .f32) (harg6 : arg6.IsWhole) (arg7 : Memref sig .tc .vmem S1x576 .f32) (harg7 : arg7.IsWhole) (arg8 : Memref sig .tc .vmem S1x576 .f32) (harg8 : arg8.IsWhole) (arg9 : Memref sig .tc .vmem S512x576 .f32) (harg9 : arg9.IsWhole) (hc0 : ¬cond0_0 i) (hc1 : ¬cond0_1 i)
    (x0 : Vec F S1x64x2304 .f32) (x1 : Vec F S1x64x576 .f32) (x2 : Vec F S1x512x2304 .f32) (x3 : Vec F S1x512x576 .f32) (xs0 : Vec F S1x576 .f32) (xs1 : Vec F S1x576 .f32) (xs2 : Vec F S512x576 .f32) :
    sout0_B_0 c i arg2 harg2 arg3 harg3 arg4 harg4 arg5 harg5 arg6 harg6 arg7 harg7 arg8 harg8 arg9 harg9 hc0 hc1 x0 x1 x2 x3 xs0 xs1 xs2 = k0_pay1 (k0_pay9 x0 x1 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1x64x2304) hz3, View.ld_unit_zero (S := S1x64x576) hz3, View.ld_unit_zero (S := S1x512x2304) hz3, View.ld_unit_zero (S := S1x512x576) hz3, View.ld_unit_zero (S := S1x576) hz2, View.ld_unit_zero (S := S512x576) hz2, View.readCov_unit_zero (S := S1x576) _ hz2, View.readCov_unit_zero (S := S512x576) _ hz2]

/-- A middle chunk leaves the new denominator. -/
theorem soutB_1 (c : Dev nD) (i : grid0.Coords) (arg2 : Memref sig .tc .vmem S1x64x2304 .f32) (harg2 : arg2.IsWhole) (arg3 : Memref sig .tc .vmem S1x64x576 .f32) (harg3 : arg3.IsWhole) (arg4 : Memref sig .tc .vmem S1x512x2304 .f32) (harg4 : arg4.IsWhole) (arg5 : Memref sig .tc .vmem S1x512x576 .f32) (harg5 : arg5.IsWhole) (arg6 : Memref sig .tc .vmem S1x1024x576 .f32) (harg6 : arg6.IsWhole) (arg7 : Memref sig .tc .vmem S1x576 .f32) (harg7 : arg7.IsWhole) (arg8 : Memref sig .tc .vmem S1x576 .f32) (harg8 : arg8.IsWhole) (arg9 : Memref sig .tc .vmem S512x576 .f32) (harg9 : arg9.IsWhole) (hc0 : ¬cond0_0 i) (hc1 : ¬cond0_1 i)
    (x0 : Vec F S1x64x2304 .f32) (x1 : Vec F S1x64x576 .f32) (x2 : Vec F S1x512x2304 .f32) (x3 : Vec F S1x512x576 .f32) (xs0 : Vec F S1x576 .f32) (xs1 : Vec F S1x576 .f32) (xs2 : Vec F S512x576 .f32) :
    sout0_B_1 c i arg2 harg2 arg3 harg3 arg4 harg4 arg5 harg5 arg6 harg6 arg7 harg7 arg8 harg8 arg9 harg9 hc0 hc1 x0 x1 x2 x3 xs0 xs1 xs2 = k0_pay12 x0 x1 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1x64x2304) hz3, View.ld_unit_zero (S := S1x64x576) hz3, View.ld_unit_zero (S := S1x512x2304) hz3, View.ld_unit_zero (S := S1x512x576) hz3, View.ld_unit_zero (S := S1x576) hz2, View.ld_unit_zero (S := S512x576) hz2, View.readCov_unit_zero (S := S1x576) _ hz2, View.readCov_unit_zero (S := S512x576) _ hz2]

/-- A middle chunk leaves the new numerator. -/
theorem soutB_2 (c : Dev nD) (i : grid0.Coords) (arg2 : Memref sig .tc .vmem S1x64x2304 .f32) (harg2 : arg2.IsWhole) (arg3 : Memref sig .tc .vmem S1x64x576 .f32) (harg3 : arg3.IsWhole) (arg4 : Memref sig .tc .vmem S1x512x2304 .f32) (harg4 : arg4.IsWhole) (arg5 : Memref sig .tc .vmem S1x512x576 .f32) (harg5 : arg5.IsWhole) (arg6 : Memref sig .tc .vmem S1x1024x576 .f32) (harg6 : arg6.IsWhole) (arg7 : Memref sig .tc .vmem S1x576 .f32) (harg7 : arg7.IsWhole) (arg8 : Memref sig .tc .vmem S1x576 .f32) (harg8 : arg8.IsWhole) (arg9 : Memref sig .tc .vmem S512x576 .f32) (harg9 : arg9.IsWhole) (hc0 : ¬cond0_0 i) (hc1 : ¬cond0_1 i)
    (x0 : Vec F S1x64x2304 .f32) (x1 : Vec F S1x64x576 .f32) (x2 : Vec F S1x512x2304 .f32) (x3 : Vec F S1x512x576 .f32) (xs0 : Vec F S1x576 .f32) (xs1 : Vec F S1x576 .f32) (xs2 : Vec F S512x576 .f32) :
    sout0_B_2 c i arg2 harg2 arg3 harg3 arg4 harg4 arg5 harg5 arg6 harg6 arg7 harg7 arg8 harg8 arg9 harg9 hc0 hc1 x0 x1 x2 x3 xs0 xs1 xs2 = k0_pay2 (k0_pay10 x0 x1 xs0) (k0_pay11 x0 x1 xs0) x2 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1x64x2304) hz3, View.ld_unit_zero (S := S1x64x576) hz3, View.ld_unit_zero (S := S1x512x2304) hz3, View.ld_unit_zero (S := S1x512x576) hz3, View.ld_unit_zero (S := S1x576) hz2, View.ld_unit_zero (S := S512x576) hz2, View.readCov_unit_zero (S := S1x576) _ hz2, View.readCov_unit_zero (S := S512x576) _ hz2]

/-! ## The last chunk -/

/-- The last chunk leaves the new maximum. -/
theorem soutC_0 (c : Dev nD) (i : grid0.Coords) (arg2 : Memref sig .tc .vmem S1x64x2304 .f32) (harg2 : arg2.IsWhole) (arg3 : Memref sig .tc .vmem S1x64x576 .f32) (harg3 : arg3.IsWhole) (arg4 : Memref sig .tc .vmem S1x512x2304 .f32) (harg4 : arg4.IsWhole) (arg5 : Memref sig .tc .vmem S1x512x576 .f32) (harg5 : arg5.IsWhole) (arg6 : Memref sig .tc .vmem S1x1024x576 .f32) (harg6 : arg6.IsWhole) (arg7 : Memref sig .tc .vmem S1x576 .f32) (harg7 : arg7.IsWhole) (arg8 : Memref sig .tc .vmem S1x576 .f32) (harg8 : arg8.IsWhole) (arg9 : Memref sig .tc .vmem S512x576 .f32) (harg9 : arg9.IsWhole) (hc0 : ¬cond0_0 i) (hc1 : cond0_1 i)
    (x0 : Vec F S1x64x2304 .f32) (x1 : Vec F S1x64x576 .f32) (x2 : Vec F S1x512x2304 .f32) (x3 : Vec F S1x512x576 .f32) (xs0 : Vec F S1x576 .f32) (xs1 : Vec F S1x576 .f32) (xs2 : Vec F S512x576 .f32) :
    sout0_C_0 c i arg2 harg2 arg3 harg3 arg4 harg4 arg5 harg5 arg6 harg6 arg7 harg7 arg8 harg8 arg9 harg9 hc0 hc1 x0 x1 x2 x3 xs0 xs1 xs2 = k0_pay1 (k0_pay9 x0 x1 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1x64x2304) hz3, View.ld_unit_zero (S := S1x64x576) hz3, View.ld_unit_zero (S := S1x512x2304) hz3, View.ld_unit_zero (S := S1x512x576) hz3, View.ld_unit_zero (S := S1x576) hz2, View.ld_unit_zero (S := S512x576) hz2, View.readCov_unit_zero (S := S1x576) _ hz2, View.readCov_unit_zero (S := S512x576) _ hz2]

/-- The last chunk leaves the new denominator. -/
theorem soutC_1 (c : Dev nD) (i : grid0.Coords) (arg2 : Memref sig .tc .vmem S1x64x2304 .f32) (harg2 : arg2.IsWhole) (arg3 : Memref sig .tc .vmem S1x64x576 .f32) (harg3 : arg3.IsWhole) (arg4 : Memref sig .tc .vmem S1x512x2304 .f32) (harg4 : arg4.IsWhole) (arg5 : Memref sig .tc .vmem S1x512x576 .f32) (harg5 : arg5.IsWhole) (arg6 : Memref sig .tc .vmem S1x1024x576 .f32) (harg6 : arg6.IsWhole) (arg7 : Memref sig .tc .vmem S1x576 .f32) (harg7 : arg7.IsWhole) (arg8 : Memref sig .tc .vmem S1x576 .f32) (harg8 : arg8.IsWhole) (arg9 : Memref sig .tc .vmem S512x576 .f32) (harg9 : arg9.IsWhole) (hc0 : ¬cond0_0 i) (hc1 : cond0_1 i)
    (x0 : Vec F S1x64x2304 .f32) (x1 : Vec F S1x64x576 .f32) (x2 : Vec F S1x512x2304 .f32) (x3 : Vec F S1x512x576 .f32) (xs0 : Vec F S1x576 .f32) (xs1 : Vec F S1x576 .f32) (xs2 : Vec F S512x576 .f32) :
    sout0_C_1 c i arg2 harg2 arg3 harg3 arg4 harg4 arg5 harg5 arg6 harg6 arg7 harg7 arg8 harg8 arg9 harg9 hc0 hc1 x0 x1 x2 x3 xs0 xs1 xs2 = k0_pay12 x0 x1 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1x64x2304) hz3, View.ld_unit_zero (S := S1x64x576) hz3, View.ld_unit_zero (S := S1x512x2304) hz3, View.ld_unit_zero (S := S1x512x576) hz3, View.ld_unit_zero (S := S1x576) hz2, View.ld_unit_zero (S := S512x576) hz2, View.readCov_unit_zero (S := S1x576) _ hz2, View.readCov_unit_zero (S := S512x576) _ hz2]

/-- The last chunk leaves the new numerator. -/
theorem soutC_2 (c : Dev nD) (i : grid0.Coords) (arg2 : Memref sig .tc .vmem S1x64x2304 .f32) (harg2 : arg2.IsWhole) (arg3 : Memref sig .tc .vmem S1x64x576 .f32) (harg3 : arg3.IsWhole) (arg4 : Memref sig .tc .vmem S1x512x2304 .f32) (harg4 : arg4.IsWhole) (arg5 : Memref sig .tc .vmem S1x512x576 .f32) (harg5 : arg5.IsWhole) (arg6 : Memref sig .tc .vmem S1x1024x576 .f32) (harg6 : arg6.IsWhole) (arg7 : Memref sig .tc .vmem S1x576 .f32) (harg7 : arg7.IsWhole) (arg8 : Memref sig .tc .vmem S1x576 .f32) (harg8 : arg8.IsWhole) (arg9 : Memref sig .tc .vmem S512x576 .f32) (harg9 : arg9.IsWhole) (hc0 : ¬cond0_0 i) (hc1 : cond0_1 i)
    (x0 : Vec F S1x64x2304 .f32) (x1 : Vec F S1x64x576 .f32) (x2 : Vec F S1x512x2304 .f32) (x3 : Vec F S1x512x576 .f32) (xs0 : Vec F S1x576 .f32) (xs1 : Vec F S1x576 .f32) (xs2 : Vec F S512x576 .f32) :
    sout0_C_2 c i arg2 harg2 arg3 harg3 arg4 harg4 arg5 harg5 arg6 harg6 arg7 harg7 arg8 harg8 arg9 harg9 hc0 hc1 x0 x1 x2 x3 xs0 xs1 xs2 = k0_pay2 (k0_pay10 x0 x1 xs0) (k0_pay11 x0 x1 xs0) x2 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1x64x2304) hz3, View.ld_unit_zero (S := S1x64x576) hz3, View.ld_unit_zero (S := S1x512x2304) hz3, View.ld_unit_zero (S := S1x512x576) hz3, View.ld_unit_zero (S := S1x576) hz2, View.ld_unit_zero (S := S512x576) hz2, View.readCov_unit_zero (S := S1x576) _ hz2, View.readCov_unit_zero (S := S512x576) _ hz2]

/-- The last chunk's result block: the copied half stored last over rows 512…1023, the read-out half over rows 0…511. -/
theorem outC (c : Dev nD) (i : grid0.Coords) (arg2 : Memref sig .tc .vmem S1x64x2304 .f32) (harg2 : arg2.IsWhole) (arg3 : Memref sig .tc .vmem S1x64x576 .f32) (harg3 : arg3.IsWhole) (arg4 : Memref sig .tc .vmem S1x512x2304 .f32) (harg4 : arg4.IsWhole) (arg5 : Memref sig .tc .vmem S1x512x576 .f32) (harg5 : arg5.IsWhole) (arg6 : Memref sig .tc .vmem S1x1024x576 .f32) (harg6 : arg6.IsWhole) (arg7 : Memref sig .tc .vmem S1x576 .f32) (harg7 : arg7.IsWhole) (arg8 : Memref sig .tc .vmem S1x576 .f32) (harg8 : arg8.IsWhole) (arg9 : Memref sig .tc .vmem S512x576 .f32) (harg9 : arg9.IsWhole) (hc0 : ¬cond0_0 i) (hc1 : cond0_1 i)
    (x0 : Vec F S1x64x2304 .f32) (x1 : Vec F S1x64x576 .f32) (x2 : Vec F S1x512x2304 .f32) (x3 : Vec F S1x512x576 .f32) (xs0 : Vec F S1x576 .f32) (xs1 : Vec F S1x576 .f32) (xs2 : Vec F S512x576 .f32) :
    out0_C_4 c i arg2 harg2 arg3 harg3 arg4 harg4 arg5 harg5 arg6 harg6 arg7 harg7 arg8 harg8 arg9 harg9 hc0 hc1 x0 x1 x2 x3 xs0 xs1 xs2
      = View.canon [⟨Rect.unit (s := S1x1024x576) ![0, 512, 0] S1x512x576.size inb_S1x1024x576_S1x512x576_0_512_0, k0_pay4 x3⟩,
          ⟨Rect.unit (s := S1x1024x576) ![0, 0, 0] S1x512x576.size inb_S1x1024x576_S1x512x576_0_0_0,
            k0_pay3 (k0_pay2 (k0_pay10 x0 x1 xs0) (k0_pay11 x0 x1 xs0) x2 xs2) (k0_pay12 x0 x1 xs0 xs1)⟩] := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  simp only [View.readAt_eq_ld, harg2.read_unread, harg3.read_unread, harg4.read_unread, harg5.read_unread, harg7.read_unread, harg8.read_unread, harg9.read_unread, View.ld_unit_zero (S := S1x64x2304) hz3, View.ld_unit_zero (S := S1x64x576) hz3, View.ld_unit_zero (S := S1x512x2304) hz3, View.ld_unit_zero (S := S1x512x576) hz3, View.ld_unit_zero (S := S1x576) hz2, View.ld_unit_zero (S := S512x576) hz2, View.readCov_unit_zero (S := S1x576) _ hz2, View.readCov_unit_zero (S := S512x576) _ hz2]

/-! ## The first chunk of a batch -/

/-- The first chunk leaves the new maximum over the reset one. -/
theorem soutA_0 (c : Dev nD) (i : grid0.Coords) (arg2 : Memref sig .tc .vmem S1x64x2304 .f32) (harg2 : arg2.IsWhole) (arg3 : Memref sig .tc .vmem S1x64x576 .f32) (harg3 : arg3.IsWhole) (arg4 : Memref sig .tc .vmem S1x512x2304 .f32) (harg4 : arg4.IsWhole) (arg5 : Memref sig .tc .vmem S1x512x576 .f32) (harg5 : arg5.IsWhole) (arg6 : Memref sig .tc .vmem S1x1024x576 .f32) (harg6 : arg6.IsWhole) (arg7 : Memref sig .tc .vmem S1x576 .f32) (harg7 : arg7.IsWhole) (arg8 : Memref sig .tc .vmem S1x576 .f32) (harg8 : arg8.IsWhole) (arg9 : Memref sig .tc .vmem S512x576 .f32) (harg9 : arg9.IsWhole) (hc0 : cond0_0 i) (hc1 : ¬cond0_1 i)
    (x0 : Vec F S1x64x2304 .f32) (x1 : Vec F S1x64x576 .f32) (x2 : Vec F S1x512x2304 .f32) (x3 : Vec F S1x512x576 .f32) :
    sout0_A_0 c i arg2 harg2 arg3 harg3 arg4 harg4 arg5 harg5 arg6 harg6 arg7 harg7 arg8 harg8 arg9 harg9 hc0 hc1 x0 x1 x2 x3 = k0_pay1 (k0_pay9 x0 x1 (k0_pay5 (F := F))) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero hz2]
  simp only [View.readAt_eq_ld, harg2.read_unread, harg3.read_unread, harg4.read_unread, harg5.read_unread, harg7.read_unread, harg8.read_unread, harg9.read_unread, View.ld_unit_zero (S := S1x64x2304) hz3, View.ld_unit_zero (S := S1x64x576) hz3, View.ld_unit_zero (S := S1x512x2304) hz3, View.ld_unit_zero (S := S1x512x576) hz3, View.ld_unit_zero (S := S1x576) hz2, View.ld_unit_zero (S := S512x576) hz2, View.readCov_unit_zero (S := S1x576) _ hz2, View.readCov_unit_zero (S := S512x576) _ hz2]

/-- The first chunk leaves the new denominator over the reset one. -/
theorem soutA_1 (c : Dev nD) (i : grid0.Coords) (arg2 : Memref sig .tc .vmem S1x64x2304 .f32) (harg2 : arg2.IsWhole) (arg3 : Memref sig .tc .vmem S1x64x576 .f32) (harg3 : arg3.IsWhole) (arg4 : Memref sig .tc .vmem S1x512x2304 .f32) (harg4 : arg4.IsWhole) (arg5 : Memref sig .tc .vmem S1x512x576 .f32) (harg5 : arg5.IsWhole) (arg6 : Memref sig .tc .vmem S1x1024x576 .f32) (harg6 : arg6.IsWhole) (arg7 : Memref sig .tc .vmem S1x576 .f32) (harg7 : arg7.IsWhole) (arg8 : Memref sig .tc .vmem S1x576 .f32) (harg8 : arg8.IsWhole) (arg9 : Memref sig .tc .vmem S512x576 .f32) (harg9 : arg9.IsWhole) (hc0 : cond0_0 i) (hc1 : ¬cond0_1 i)
    (x0 : Vec F S1x64x2304 .f32) (x1 : Vec F S1x64x576 .f32) (x2 : Vec F S1x512x2304 .f32) (x3 : Vec F S1x512x576 .f32) :
    sout0_A_1 c i arg2 harg2 arg3 harg3 arg4 harg4 arg5 harg5 arg6 harg6 arg7 harg7 arg8 harg8 arg9 harg9 hc0 hc1 x0 x1 x2 x3 = k0_pay12 x0 x1 (k0_pay5 (F := F)) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero hz2]
  simp only [View.readAt_eq_ld, harg2.read_unread, harg3.read_unread, harg4.read_unread, harg5.read_unread, harg7.read_unread, harg8.read_unread, harg9.read_unread, View.ld_unit_zero (S := S1x64x2304) hz3, View.ld_unit_zero (S := S1x64x576) hz3, View.ld_unit_zero (S := S1x512x2304) hz3, View.ld_unit_zero (S := S1x512x576) hz3, View.ld_unit_zero (S := S1x576) hz2, View.ld_unit_zero (S := S512x576) hz2, View.readCov_unit_zero (S := S1x576) _ hz2, View.readCov_unit_zero (S := S512x576) _ hz2]

/-- The first chunk leaves the new numerator over the reset one. -/
theorem soutA_2 (c : Dev nD) (i : grid0.Coords) (arg2 : Memref sig .tc .vmem S1x64x2304 .f32) (harg2 : arg2.IsWhole) (arg3 : Memref sig .tc .vmem S1x64x576 .f32) (harg3 : arg3.IsWhole) (arg4 : Memref sig .tc .vmem S1x512x2304 .f32) (harg4 : arg4.IsWhole) (arg5 : Memref sig .tc .vmem S1x512x576 .f32) (harg5 : arg5.IsWhole) (arg6 : Memref sig .tc .vmem S1x1024x576 .f32) (harg6 : arg6.IsWhole) (arg7 : Memref sig .tc .vmem S1x576 .f32) (harg7 : arg7.IsWhole) (arg8 : Memref sig .tc .vmem S1x576 .f32) (harg8 : arg8.IsWhole) (arg9 : Memref sig .tc .vmem S512x576 .f32) (harg9 : arg9.IsWhole) (hc0 : cond0_0 i) (hc1 : ¬cond0_1 i)
    (x0 : Vec F S1x64x2304 .f32) (x1 : Vec F S1x64x576 .f32) (x2 : Vec F S1x512x2304 .f32) (x3 : Vec F S1x512x576 .f32) :
    sout0_A_2 c i arg2 harg2 arg3 harg3 arg4 harg4 arg5 harg5 arg6 harg6 arg7 harg7 arg8 harg8 arg9 harg9 hc0 hc1 x0 x1 x2 x3 = k0_pay2 (k0_pay10 x0 x1 (k0_pay5 (F := F))) (k0_pay11 x0 x1 (k0_pay5 (F := F))) x2 (k0_pay7 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero hz2]
  simp only [View.readAt_eq_ld, harg2.read_unread, harg3.read_unread, harg4.read_unread, harg5.read_unread, harg7.read_unread, harg8.read_unread, harg9.read_unread, View.ld_unit_zero (S := S1x64x2304) hz3, View.ld_unit_zero (S := S1x64x576) hz3, View.ld_unit_zero (S := S1x512x2304) hz3, View.ld_unit_zero (S := S1x512x576) hz3, View.ld_unit_zero (S := S1x576) hz2, View.ld_unit_zero (S := S512x576) hz2, View.readCov_unit_zero (S := S1x576) _ hz2, View.readCov_unit_zero (S := S512x576) _ hz2]

end Cert.KernelIdeal.Pieces

end
-- ==== Proof.Payload.lean ====
/-
  What one grid step of the streaming program computes, read entry by entry on the extended reals.

  With `x0` the chunk of memory keys (64 channels × 2304 tokens), `x1` the query keys (64 × 576 pixels),
  `x2` the chunk of memory values (512 × 2304), and the carried state `m` (running maximum per pixel), `l`
  (running denominator per pixel), `acc` (running numerator per value channel and pixel):
    score of token r at pixel q   (2·∑_c x0[c,r]·x1[c,q] − ∑_c x0[c,r]²·1) · (1/8)
    new maximum                   max (m q) (max over the chunk's tokens of the score, from −∞)
    weight of token r             exp (score − new maximum)
    rescale factor                exp (m q − new maximum)
    new denominator               l q · rescale + ∑_r weight r
    new numerator                 acc[c,q] · rescale + ∑_r x2[c,r] · weight r
  and the last step divides numerator by denominator and copies the query values beside it.
-/
import proofs.«164901_g25348896981519_cont_9to1_2299_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-! ## Reading the layout operations and the three products at an index -/

/-- A `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The product of the squared key chunk with the column of ones: output `(r, ·)`, contraction over the channels. -/

private theorem lhs_sq_0 (i : S2304x1.Idx) (k : dot_S64x2304_S64x1_S2304x1_0_0_1_1_n_n.contr.Idx) :
    (dot_S64x2304_S64x1_S2304x1_0_0_1_1_n_n.lhsIdx i k 0).val = (k ⟨0, by decide⟩).val :=
  dot_S64x2304_S64x1_S2304x1_0_0_1_1_n_n.lhsIdx_val_of_single rfl i k
private theorem lhs_sq_1 (i : S2304x1.Idx) (k : dot_S64x2304_S64x1_S2304x1_0_0_1_1_n_n.contr.Idx) :
    (dot_S64x2304_S64x1_S2304x1_0_0_1_1_n_n.lhsIdx i k 1).val = (i 0).val := by
  unfold DotDims.lhsIdx
  rw [dif_neg (show ¬(1 : Fin S64x2304.rank) ∈ dot_S64x2304_S64x1_S2304x1_0_0_1_1_n_n.lhsBatch by decide),
    dif_pos (show (1 : Fin S64x2304.rank) ∈ dot_S64x2304_S64x1_S2304x1_0_0_1_1_n_n.lhsNonContracting by decide)]
  rfl
private theorem rhs_sq_0 (i : S2304x1.Idx) (k : dot_S64x2304_S64x1_S2304x1_0_0_1_1_n_n.contr.Idx) :
    (dot_S64x2304_S64x1_S2304x1_0_0_1_1_n_n.rhsIdx i k 0).val = (k ⟨0, by decide⟩).val :=
  dot_S64x2304_S64x1_S2304x1_0_0_1_1_n_n.rhsIdx_val_of_single rfl i k
private theorem rhs_sq_1 (i : S2304x1.Idx) (k : dot_S64x2304_S64x1_S2304x1_0_0_1_1_n_n.contr.Idx) :
    (dot_S64x2304_S64x1_S2304x1_0_0_1_1_n_n.rhsIdx i k 1).val = (i 1).val := by
  unfold DotDims.rhsIdx
  rw [dif_neg (show ¬(1 : Fin S64x1.rank) ∈ dot_S64x2304_S64x1_S2304x1_0_0_1_1_n_n.rhsBatch by decide),
    dif_pos (show (1 : Fin S64x1.rank) ∈ dot_S64x2304_S64x1_S2304x1_0_0_1_1_n_n.rhsNonContracting by decide)]
  rfl

/-- That product into the zero accumulator at `(r, u)`: the sum over the channels. -/
private theorem matmul_sq_apply (a : FVec Ideal S64x2304 .f32) (b : FVec Ideal S64x1 .f32) (r : Fin 2304) (u : Fin 1) :
    matmul (F := Ideal) dot_S64x2304_S64x1_S2304x1_0_0_1_1_n_n none a b (constant S2304x1 .f32 0x00000000#32) (ix2 r u)
      = ∑ c : Fin 64, a (ix2 c r) * b (ix2 c u) := by
  simp only [matmul]
  rw [Ideal.matmul_constant_zero_apply,
    ← Equiv.sum_comp (contrEquiv1 dot_S64x2304_S64x1_S2304x1_0_0_1_1_n_n 64 rfl rfl).symm]
  refine Finset.sum_congr rfl fun c _ => ?_
  have hc := contrEquiv1_symm_val dot_S64x2304_S64x1_S2304x1_0_0_1_1_n_n 64 rfl rfl c
  have el : dot_S64x2304_S64x1_S2304x1_0_0_1_1_n_n.lhsIdx (ix2 r u)
      ((contrEquiv1 dot_S64x2304_S64x1_S2304x1_0_0_1_1_n_n 64 rfl rfl).symm c) = ix2 c r :=
    funext fun ax => Fin.ext (by
      match ax with
      | ⟨0, _⟩ => exact (lhs_sq_0 _ _).trans hc
      | ⟨1, _⟩ => exact lhs_sq_1 _ _)
  have er : dot_S64x2304_S64x1_S2304x1_0_0_1_1_n_n.rhsIdx (ix2 r u)
      ((contrEquiv1 dot_S64x2304_S64x1_S2304x1_0_0_1_1_n_n 64 rfl rfl).symm c) = ix2 c u :=
    funext fun ax => Fin.ext (by
      match ax with
      | ⟨0, _⟩ => exact (rhs_sq_0 _ _).trans hc
      | ⟨1, _⟩ => exact rhs_sq_1 _ _)
  rw [el, er]

/-! The product of the key chunk with the query keys: output `(r, q)`, contraction over the channels. -/

private theorem lhs_qk_0 (i : S2304x576.Idx) (k : dot_S64x2304_S64x576_S2304x576_0_0_1_1_n_n.contr.Idx) :
    (dot_S64x2304_S64x576_S2304x576_0_0_1_1_n_n.lhsIdx i k 0).val = (k ⟨0, by decide⟩).val :=
  dot_S64x2304_S64x576_S2304x576_0_0_1_1_n_n.lhsIdx_val_of_single rfl i k
private theorem lhs_qk_1 (i : S2304x576.Idx) (k : dot_S64x2304_S64x576_S2304x576_0_0_1_1_n_n.contr.Idx) :
    (dot_S64x2304_S64x576_S2304x576_0_0_1_1_n_n.lhsIdx i k 1).val = (i 0).val := by
  unfold DotDims.lhsIdx
  rw [dif_neg (show ¬(1 : Fin S64x2304.rank) ∈ dot_S64x2304_S64x576_S2304x576_0_0_1_1_n_n.lhsBatch by decide),
    dif_pos (show (1 : Fin S64x2304.rank) ∈ dot_S64x2304_S64x576_S2304x576_0_0_1_1_n_n.lhsNonContracting by decide)]
  rfl
private theorem rhs_qk_0 (i : S2304x576.Idx) (k : dot_S64x2304_S64x576_S2304x576_0_0_1_1_n_n.contr.Idx) :
    (dot_S64x2304_S64x576_S2304x576_0_0_1_1_n_n.rhsIdx i k 0).val = (k ⟨0, by decide⟩).val :=
  dot_S64x2304_S64x576_S2304x576_0_0_1_1_n_n.rhsIdx_val_of_single rfl i k
private theorem rhs_qk_1 (i : S2304x576.Idx) (k : dot_S64x2304_S64x576_S2304x576_0_0_1_1_n_n.contr.Idx) :
    (dot_S64x2304_S64x576_S2304x576_0_0_1_1_n_n.rhsIdx i k 1).val = (i 1).val := by
  unfold DotDims.rhsIdx
  rw [dif_neg (show ¬(1 : Fin S64x576.rank) ∈ dot_S64x2304_S64x576_S2304x576_0_0_1_1_n_n.rhsBatch by decide),
    dif_pos (show (1 : Fin S64x576.rank) ∈ dot_S64x2304_S64x576_S2304x576_0_0_1_1_n_n.rhsNonContracting by decide)]
  rfl

/-- That product into the zero accumulator at `(r, q)`: the sum over the channels. -/
private theorem matmul_qk_apply (a : FVec Ideal S64x2304 .f32) (b : FVec Ideal S64x576 .f32) (r : Fin 2304) (q : Fin 576) :
    matmul (F := Ideal) dot_S64x2304_S64x576_S2304x576_0_0_1_1_n_n none a b (constant S2304x576 .f32 0x00000000#32) (ix2 r q)
      = ∑ c : Fin 64, a (ix2 c r) * b (ix2 c q) := by
  simp only [matmul]
  rw [Ideal.matmul_constant_zero_apply,
    ← Equiv.sum_comp (contrEquiv1 dot_S64x2304_S64x576_S2304x576_0_0_1_1_n_n 64 rfl rfl).symm]
  refine Finset.sum_congr rfl fun c _ => ?_
  have hc := contrEquiv1_symm_val dot_S64x2304_S64x576_S2304x576_0_0_1_1_n_n 64 rfl rfl c
  have el : dot_S64x2304_S64x576_S2304x576_0_0_1_1_n_n.lhsIdx (ix2 r q)
      ((contrEquiv1 dot_S64x2304_S64x576_S2304x576_0_0_1_1_n_n 64 rfl rfl).symm c) = ix2 c r :=
    funext fun ax => Fin.ext (by
      match ax with
      | ⟨0, _⟩ => exact (lhs_qk_0 _ _).trans hc
      | ⟨1, _⟩ => exact lhs_qk_1 _ _)
  have er : dot_S64x2304_S64x576_S2304x576_0_0_1_1_n_n.rhsIdx (ix2 r q)
      ((contrEquiv1 dot_S64x2304_S64x576_S2304x576_0_0_1_1_n_n 64 rfl rfl).symm c) = ix2 c q :=
    funext fun ax => Fin.ext (by
      match ax with
      | ⟨0, _⟩ => exact (rhs_qk_0 _ _).trans hc
      | ⟨1, _⟩ => exact rhs_qk_1 _ _)
  rw [el, er]

/-- The score from the key chunk `a` and the query keys `b`, both as matrices, at `(r, q)`. -/
private theorem scores_core (a : FVec Ideal S64x2304 .f32) (b : FVec Ideal S64x576 .f32) (r : Fin 2304) (q : Fin 576) :
    mulf (subf (mulf (broadcast S2304x576 (Scalar.ofBits (F := Ideal) .f32 0x40000000#32))
            (matmul (F := Ideal) dot_S64x2304_S64x576_S2304x576_0_0_1_1_n_n none a b (constant S2304x576 .f32 0x00000000#32)))
          (broadcastTo S2304x576
            (matmul (F := Ideal) dot_S64x2304_S64x1_S2304x1_0_0_1_1_n_n none (mulf a a)
              (broadcast S64x1 (Scalar.ofBits (F := Ideal) .f32 0x3F800000#32)) (constant S2304x1 .f32 0x00000000#32))
            broadcasts_S2304x1_S2304x576))
        (broadcast S2304x576 (Scalar.ofBits (F := Ideal) .f32 0x3E000000#32)) (ix2 r q)
      = (Ideal.ofBits .f32 0x40000000#32 * (∑ c : Fin 64, a (ix2 c r) * b (ix2 c q))
          - ∑ c : Fin 64, (a (ix2 c r) * a (ix2 c r)) * Ideal.ofBits .f32 0x3F800000#32)
        * Ideal.ofBits .f32 0x3E000000#32 := by
  refine (mulf_apply _ _ _).trans ?_
  rw [subf_apply, mulf_apply, matmul_qk_apply, broadcastTo_a1_ab_apply, matmul_sq_apply]
  rfl

/-- The reduced index `t` with row `k` put back on the reduced axis is `(k, t)`. -/
private theorem lift_ix2 {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- The maximum of a carried row `m` with the maximum of a matrix over its rows, from −∞, read at column `q`. -/
private theorem colmax_apply (y : FVec Ideal S2304x576 .f32) (m : FVec Ideal S1x576 .f32) (q : Fin 576) :
    maximumf m (shapeCast S1x576 (multiReduction (F := Ideal) .maximumf [0] S576 y 0xFF800000#32
        reduces_S2304x576_S576 (.inl rfl) rfl) shapeCasts_S576_S1x576) (ix2 0 q)
      = max (m (ix2 0 q)) (Finset.univ.fold max (Ideal.ofBits .f32 0xFF800000#32) (fun r : Fin 2304 => y (ix2 r q))) := by
  refine (maximumf_apply _ _ _).trans ?_
  rw [shapeCast_a_1a_apply]
  refine congrArg (max (m (ix2 0 q))) ?_
  refine (Ideal.multiReduction_maximumf_single y _ reduces_S2304x576_S576 _ _ (ix1 q)).trans ?_
  have hf : (y ∘ reduces_S2304x576_S576.lift (ix1 q)) = fun r : Fin 2304 => y (ix2 r q) :=
    funext fun k => congrArg y (lift_ix2 _ q k)
  exact congrArg (fun f => Finset.fold max (Ideal.ofBits .f32 0xFF800000#32) f (Finset.univ : Finset (Fin 2304))) hf

/-- A row `a` plus the sum of a matrix over its rows, read at column `q`. -/
private theorem colsum_apply (y : FVec Ideal S2304x576 .f32) (a : FVec Ideal S1x576 .f32) (q : Fin 576) :
    shapeCast S1x576 (addf a (shapeCast S1x576 (multiReduction (F := Ideal) .add [0] S576 y 0x00000000#32
        reduces_S2304x576_S576 (.inl rfl) rfl) shapeCasts_S576_S1x576)) shapeCasts_S1x576_S1x576 (ix2 0 q)
      = a (ix2 0 q) + ∑ r : Fin 2304, y (ix2 r q) := by
  rw [shapeCast_self]
  refine (addf_apply _ _ _).trans ?_
  rw [shapeCast_a_1a_apply]
  refine congrArg (a (ix2 0 q) + ·) ?_
  refine (Ideal.multiReduction_add_single y _ reduces_S2304x576_S576 _ _ (ix1 q)).trans ?_
  exact Finset.sum_congr rfl fun k _ => congrArg y (lift_ix2 _ q k)

/-! The product of the value chunk with the weights: output `(c, q)`, contraction over the tokens. -/

private theorem lhs_acc_0 (i : S512x576.Idx) (k : dot_S512x2304_S2304x576_S512x576_1_0_0_1_n_n.contr.Idx) :
    (dot_S512x2304_S2304x576_S512x576_1_0_0_1_n_n.lhsIdx i k 0).val = (i 0).val := by
  unfold DotDims.lhsIdx
  rw [dif_neg (show ¬(0 : Fin S512x2304.rank) ∈ dot_S512x2304_S2304x576_S512x576_1_0_0_1_n_n.lhsBatch by decide),
    dif_pos (show (0 : Fin S512x2304.rank) ∈ dot_S512x2304_S2304x576_S512x576_1_0_0_1_n_n.lhsNonContracting by decide)]
  rfl
private theorem lhs_acc_1 (i : S512x576.Idx) (k : dot_S512x2304_S2304x576_S512x576_1_0_0_1_n_n.contr.Idx) :
    (dot_S512x2304_S2304x576_S512x576_1_0_0_1_n_n.lhsIdx i k 1).val = (k ⟨0, by decide⟩).val :=
  dot_S512x2304_S2304x576_S512x576_1_0_0_1_n_n.lhsIdx_val_of_single rfl i k
private theorem rhs_acc_0 (i : S512x576.Idx) (k : dot_S512x2304_S2304x576_S512x576_1_0_0_1_n_n.contr.Idx) :
    (dot_S512x2304_S2304x576_S512x576_1_0_0_1_n_n.rhsIdx i k 0).val = (k ⟨0, by decide⟩).val :=
  dot_S512x2304_S2304x576_S512x576_1_0_0_1_n_n.rhsIdx_val_of_single rfl i k
private theorem rhs_acc_1 (i : S512x576.Idx) (k : dot_S512x2304_S2304x576_S512x576_1_0_0_1_n_n.contr.Idx) :
    (dot_S512x2304_S2304x576_S512x576_1_0_0_1_n_n.rhsIdx i k 1).val = (i 1).val := by
  unfold DotDims.rhsIdx
  rw [dif_neg (show ¬(1 : Fin S2304x576.rank) ∈ dot_S512x2304_S2304x576_S512x576_1_0_0_1_n_n.rhsBatch by decide),
    dif_pos (show (1 : Fin S2304x576.rank) ∈ dot_S512x2304_S2304x576_S512x576_1_0_0_1_n_n.rhsNonContracting by decide)]
  rfl

/-- The product into the zero accumulator at `(c, q)`: the sum over the tokens. -/
private theorem matmul_acc_apply (a : FVec Ideal S512x2304 .f32) (p : FVec Ideal S2304x576 .f32) (c : Fin 512) (q : Fin 576) :
    matmul (F := Ideal) dot_S512x2304_S2304x576_S512x576_1_0_0_1_n_n none a p (constant S512x576 .f32 0x00000000#32) (ix2 c q)
      = ∑ r : Fin 2304, a (ix2 c r) * p (ix2 r q) := by
  simp only [matmul]
  rw [Ideal.matmul_constant_zero_apply,
    ← Equiv.sum_comp (contrEquiv1 dot_S512x2304_S2304x576_S512x576_1_0_0_1_n_n 2304 rfl rfl).symm]
  refine Finset.sum_congr rfl fun r _ => ?_
  have hr := contrEquiv1_symm_val dot_S512x2304_S2304x576_S512x576_1_0_0_1_n_n 2304 rfl rfl r
  have el : dot_S512x2304_S2304x576_S512x576_1_0_0_1_n_n.lhsIdx (ix2 c q)
      ((contrEquiv1 dot_S512x2304_S2304x576_S512x576_1_0_0_1_n_n 2304 rfl rfl).symm r) = ix2 c r :=
    funext fun ax => Fin.ext (by
      match ax with
      | ⟨0, _⟩ => exact lhs_acc_0 _ _
      | ⟨1, _⟩ => exact (lhs_acc_1 _ _).trans hr)
  have er : dot_S512x2304_S2304x576_S512x576_1_0_0_1_n_n.rhsIdx (ix2 c q)
      ((contrEquiv1 dot_S512x2304_S2304x576_S512x576_1_0_0_1_n_n 2304 rfl rfl).symm r) = ix2 r q :=
    funext fun ax => Fin.ext (by
      match ax with
      | ⟨0, _⟩ => exact (rhs_acc_0 _ _).trans hr
      | ⟨1, _⟩ => exact rhs_acc_1 _ _)
  rw [el, er]

/-! ## The payloads at an index -/

/-- The score of token `r` of the chunk at pixel `q`. -/
theorem scores_apply (x0 : FVec Ideal S1x64x2304 .f32) (x1 : FVec Ideal S1x64x576 .f32) (r : Fin 2304) (q : Fin 576) :
    k0_pay8 (F := Ideal) x0 x1 (ix2 r q)
      = (Ideal.ofBits .f32 0x40000000#32 * (∑ c : Fin 64, x0 (ix3 0 c r) * x1 (ix3 0 c q))
          - ∑ c : Fin 64, (x0 (ix3 0 c r) * x0 (ix3 0 c r)) * Ideal.ofBits .f32 0x3F800000#32)
        * Ideal.ofBits .f32 0x3E000000#32 := by
  refine (scores_core (shapeCast S64x2304 x0 shapeCasts_S1x64x2304_S64x2304)
    (shapeCast S64x576 x1 shapeCasts_S1x64x576_S64x576) r q).trans ?_
  simp only [shapeCast_1ab_ab_apply]

/-- The new running maximum at pixel `q`. -/
theorem newmax_apply (x0 : FVec Ideal S1x64x2304 .f32) (x1 : FVec Ideal S1x64x576 .f32) (m : FVec Ideal S1x576 .f32) (q : Fin 576) :
    k0_pay9 (F := Ideal) x0 x1 m (ix2 0 q)
      = max (m (ix2 0 q)) (Finset.univ.fold max (Ideal.ofBits .f32 0xFF800000#32)
          (fun r : Fin 2304 => k0_pay8 (F := Ideal) x0 x1 (ix2 r q))) :=
  colmax_apply (k0_pay8 (F := Ideal) x0 x1) m q

/-- The weight of token `r` at pixel `q`. -/
theorem weights_apply (x0 : FVec Ideal S1x64x2304 .f32) (x1 : FVec Ideal S1x64x576 .f32) (m : FVec Ideal S1x576 .f32)
    (r : Fin 2304) (q : Fin 576) :
    k0_pay10 (F := Ideal) x0 x1 m (ix2 r q)
      = Ideal.exp (k0_pay8 (F := Ideal) x0 x1 (ix2 r q) - k0_pay9 (F := Ideal) x0 x1 m (ix2 0 q)) := by
  unfold k0_pay10
  show Ideal.exp (k0_pay8 (F := Ideal) x0 x1 (ix2 r q)
    - broadcastTo S2304x576 (k0_pay9 (F := Ideal) x0 x1 m) broadcasts_S1x576_S2304x576 (ix2 r q)) = _
  rw [broadcastTo_1b_ab_apply]

/-- The factor the carried sums are rescaled by at pixel `q`. -/
theorem rescale_apply (x0 : FVec Ideal S1x64x2304 .f32) (x1 : FVec Ideal S1x64x576 .f32) (m : FVec Ideal S1x576 .f32) (q : Fin 576) :
    k0_pay11 (F := Ideal) x0 x1 m (ix2 0 q)
      = Ideal.exp (m (ix2 0 q) - k0_pay9 (F := Ideal) x0 x1 m (ix2 0 q)) := by
  unfold k0_pay11
  rfl

/-- The new running denominator at pixel `q`. -/
theorem newsum_apply (x0 : FVec Ideal S1x64x2304 .f32) (x1 : FVec Ideal S1x64x576 .f32) (m l : FVec Ideal S1x576 .f32) (q : Fin 576) :
    k0_pay12 (F := Ideal) x0 x1 m l (ix2 0 q)
      = l (ix2 0 q) * k0_pay11 (F := Ideal) x0 x1 m (ix2 0 q)
        + ∑ r : Fin 2304, k0_pay10 (F := Ideal) x0 x1 m (ix2 r q) :=
  colsum_apply (k0_pay10 (F := Ideal) x0 x1 m) (mulf l (k0_pay11 (F := Ideal) x0 x1 m)) q

/-- The new running numerator for value channel `c` at pixel `q`, from the weights `p` and the rescale factor `s`. -/
theorem newacc_apply (p : FVec Ideal S2304x576 .f32) (s : FVec Ideal S1x576 .f32) (x2 : FVec Ideal S1x512x2304 .f32)
    (acc : FVec Ideal S512x576 .f32) (c : Fin 512) (q : Fin 576) :
    k0_pay2 (F := Ideal) p s x2 acc (ix2 c q)
      = acc (ix2 c q) * s (ix2 0 q) + ∑ r : Fin 2304, x2 (ix3 0 c r) * p (ix2 r q) := by
  unfold k0_pay2
  simp only [shapeCast_self]
  show acc (ix2 c q) * broadcastTo S512x576 s broadcasts_S1x576_S512x576 (ix2 c q)
    + matmul (F := Ideal) dot_S512x2304_S2304x576_S512x576_1_0_0_1_n_n none
        (shapeCast S512x2304 x2 shapeCasts_S1x512x2304_S512x2304) p (constant S512x576 .f32 0x00000000#32) (ix2 c q) = _
  rw [broadcastTo_1b_ab_apply, matmul_acc_apply]
  refine congrArg (acc (ix2 c q) * s (ix2 0 q) + ·) (Finset.sum_congr rfl fun r _ => ?_)
  rw [shapeCast_1ab_ab_apply]

/-- Storing the new maximum changes nothing of it. -/
theorem keep_apply (v : FVec Ideal S1x576 .f32) : k0_pay1 (F := Ideal) v = v := by
  unfold k0_pay1
  exact shapeCast_self v _

/-- The read-out half of the result block: numerator over denominator. -/
theorem out_top_apply (acc : FVec Ideal S512x576 .f32) (l : FVec Ideal S1x576 .f32) (c : Fin 512) (q : Fin 576) :
    k0_pay3 (F := Ideal) acc l (ix3 0 c q) = Ideal.div (acc (ix2 c q)) (l (ix2 0 q)) := by
  unfold k0_pay3
  refine (shapeCast_ab_1ab_apply _ shapeCasts_S512x576_S1x512x576 0 c q).trans ?_
  show Ideal.div (acc (ix2 c q)) (broadcastTo S512x576 l broadcasts_S1x576_S512x576 (ix2 c q)) = _
  rw [broadcastTo_1b_ab_apply]

/-- The copied half of the result block: the query values as they are. -/
theorem out_bot_apply (x3 : FVec Ideal S1x512x576 .f32) (c : Fin 512) (q : Fin 576) :
    k0_pay4 (F := Ideal) x3 (ix3 0 c q) = x3 (ix3 0 c q) := by
  unfold k0_pay4
  exact congrFun (shapeCast_shapeCast x3 _ _) _

/-- The reset values: −∞ for the maximum, zero for both sums. -/
theorem reset_max_apply (q : Fin 576) : (k0_pay5 (F := Ideal)) (ix2 0 q) = Ideal.ofBits .f32 0xFF800000#32 := by
  unfold k0_pay5
  simp only [shapeCast_self]
  rfl
theorem reset_sum_apply (q : Fin 576) : (k0_pay6 (F := Ideal)) (ix2 0 q) = Ideal.ofBits .f32 0x00000000#32 := by
  unfold k0_pay6
  simp only [shapeCast_self]
  rfl
theorem reset_acc_apply (c : Fin 512) (q : Fin 576) : (k0_pay7 (F := Ideal)) (ix2 c q) = Ideal.ofBits .f32 0x00000000#32 := by
  unfold k0_pay7
  simp only [shapeCast_self]
  rfl

end Cert.KernelIdeal.Pay

end
-- ==== Proof.Softmax.lean ====
/-
  The mathematics of the streamed softmax read-out, with no program in sight.

  A query column `k` is scored against a memory column `a` (64 channels each) by
  `sc a k = (2·⟨a,k⟩ − ⟨a,a⟩)/8`. For scores `S j` and values `V j` over the memory tokens the read-out is
  `(∑ⱼ V j · e^{S j}) / (∑ⱼ e^{S j})`.

  Two programs compute it. One subtracts the global maximum `M` first and normalizes each weight:
  `∑ⱼ V j · (e^{S j − M} / ∑ e^{S j' − M})`. The other streams the tokens chunk by chunk and keeps a running
  maximum `μ`, a running denominator `L·e^{−μ}` and a running numerator `A·e^{−μ}`, rescaling both by
  `e^{μ − μ'}` whenever the maximum moves to `μ'`. Because `e^{x − μ} = e^x · e^{−μ}` on the reals, whatever real
  shift is used cancels between numerator and denominator: neither form depends on WHICH real the shift is, only
  on its being one. The lemmas below say this on the extended reals, where the programs live: every quantity is
  the coercion of a real except the running maximum before the first chunk, which is `⊥`, and there the running
  sums are `0`, so the rescaling factor `e^{⊥ − μ'} = 0` multiplies `0`.
-/
import Idealize.ShloMosaic.PureOps.Ideal

noncomputable section

namespace Cert.Softmax

open Idealize.ShloMosaic

/-! ## Coercions pushed outward -/

/-- A finite sum of coerced reals is the coercion of the real sum. -/
private theorem coe_sum {α : Type*} (s : Finset α) (f : α → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coercion of the real maximum. -/
private theorem coe_max' (a b : ℝ) : max (a : EReal) (b : EReal) = ((max a b : ℝ) : EReal) :=
  (EReal.coe_strictMono.monotone.map_max).symm

/-- `e^{x − μ} = e^x · e^{−μ}`, on the extended reals at two coerced reals. -/
private theorem exp_sub_coe (x μ : ℝ) :
    Ideal.exp ((x : EReal) - (μ : EReal)) = ((Real.exp x * Real.exp (-μ) : ℝ) : EReal) := by
  rw [← EReal.coe_sub, Ideal.exp_coe, sub_eq_add_neg, Real.exp_add]

/-- Moving the shift from `μ` to `μ'`: `(X·e^{−μ})·e^{μ − μ'} = X·e^{−μ'}`. -/
private theorem rescale (X μ μ' : ℝ) :
    ((X * Real.exp (-μ) : ℝ) : EReal) * Ideal.exp ((μ : EReal) - (μ' : EReal))
      = ((X * Real.exp (-μ') : ℝ) : EReal) := by
  rw [exp_sub_coe, ← EReal.coe_mul]
  congr 1
  rw [mul_assoc, ← mul_assoc (Real.exp (-μ)), ← Real.exp_add, neg_add_cancel, Real.exp_zero, one_mul]

/-! ## Scores -/

/-- The score of a memory column `a` against a query column `k`: `(2·⟨a,k⟩ − ⟨a,a⟩) · (1/8)`. -/
def sc (a k : Fin 64 → ℝ) : ℝ := (2 * ∑ c, a c * k c - ∑ c, a c * a c) * (1 / 8)

/-- The streaming program's spelling: the squared norm as a product with a column of ones, the scale a product with `1/8`. -/
theorem sc_stream (a k : Fin 64 → ℝ) :
    (((2 : ℝ) : EReal) * (∑ c, (a c : EReal) * (k c : EReal))
        - ∑ c, ((a c : EReal) * (a c : EReal)) * ((1 : ℝ) : EReal)) * ((1 / 8 : ℝ) : EReal)
      = ((sc a k : ℝ) : EReal) := by
  simp only [← EReal.coe_mul, coe_sum, ← EReal.coe_sub]
  congr 1
  simp only [sc, mul_one]

/-- The dense program's spelling: the squared norm a sum from zero, the scale a quotient by `8`. -/
theorem sc_dense (a k : Fin 64 → ℝ) :
    Ideal.div (((2 : ℝ) : EReal) * (∑ c, (a c : EReal) * (k c : EReal))
        - ((0 : EReal) + ∑ c, (a c : EReal) * (a c : EReal))) ((8 : ℝ) : EReal)
      = ((sc a k : ℝ) : EReal) := by
  rw [Ideal.div_coe (by norm_num : (8 : ℝ) ≠ 0), zero_add]
  simp only [← EReal.coe_mul, coe_sum, ← EReal.coe_sub]
  rfl

/-! ## The read-out -/

/-- The softmax-weighted read-out of values `V` under scores `S`. -/
def readout {κ : Type*} [Fintype κ] (S V : κ → ℝ) : ℝ := (∑ j, V j * Real.exp (S j)) / (∑ j, Real.exp (S j))

section Online

variable {ι : Type*} [Fintype ι] [Nonempty ι]

/-- Over a nonempty finite set the fold of `max` from `⊥` over coerced reals is a coerced real. -/
private theorem fold_max_coe {α : Type*} (s : Finset α) (S : α → ℝ) (hs : s.Nonempty) :
    ∃ μ : ℝ, s.fold max (⊥ : EReal) (fun r => (S r : EReal)) = (μ : EReal) := by
  classical
  induction s using Finset.induction_on with
  | empty => exact absurd hs Finset.not_nonempty_empty
  | insert a s ha ih =>
    rw [Finset.fold_insert ha]
    rcases s.eq_empty_or_nonempty with rfl | hs'
    · exact ⟨S a, by rw [Finset.fold_empty, max_bot_right]⟩
    · obtain ⟨μ, hμ⟩ := ih hs'
      exact ⟨max (S a) μ, by rw [hμ, coe_max']⟩

/-- The shifted exponentials sum to `(∑ e^{S r})·e^{−μ}`. -/
private theorem sum_exp_sub {α : Type*} [Fintype α] (S : α → ℝ) (μ : ℝ) :
    ∑ r, Ideal.exp ((S r : EReal) - (μ : EReal)) = (((∑ r, Real.exp (S r)) * Real.exp (-μ) : ℝ) : EReal) := by
  simp only [exp_sub_coe, coe_sum, Finset.sum_mul]

/-- The value-weighted shifted exponentials sum to `(∑ V r·e^{S r})·e^{−μ}`. -/
private theorem sum_mul_exp_sub {α : Type*} [Fintype α] (S V : α → ℝ) (μ : ℝ) :
    ∑ r, (V r : EReal) * Ideal.exp ((S r : EReal) - (μ : EReal))
      = (((∑ r, V r * Real.exp (S r)) * Real.exp (-μ) : ℝ) : EReal) := by
  simp only [exp_sub_coe, ← EReal.coe_mul, coe_sum, Finset.sum_mul, mul_assoc]

/-- The maximum of finitely many reals (at least one), folded from `⊥` on the extended reals, is a real. -/
theorem foldmax_coe (S : ι → ℝ) :
    ∃ μ : ℝ, Finset.univ.fold max (⊥ : EReal) (fun r => (S r : EReal)) = (μ : EReal) :=
  fold_max_coe Finset.univ S Finset.univ_nonempty

/-- The first chunk, from the reset state (maximum `⊥`, both sums `0`): the new maximum is a real `μ'`, the new
    denominator `(∑ e^{S r})·e^{−μ'}`, and for every value column the new numerator `(∑ V r·e^{S r})·e^{−μ'}`. -/
theorem online_first (S : ι → ℝ) : ∃ μ' : ℝ,
    max (⊥ : EReal) (Finset.univ.fold max (⊥ : EReal) (fun r => (S r : EReal))) = (μ' : EReal)
    ∧ (0 : EReal) * Ideal.exp ((⊥ : EReal) - (μ' : EReal)) + ∑ r, Ideal.exp ((S r : EReal) - (μ' : EReal))
        = (((∑ r, Real.exp (S r)) * Real.exp (-μ') : ℝ) : EReal)
    ∧ ∀ V : ι → ℝ, (0 : EReal) * Ideal.exp ((⊥ : EReal) - (μ' : EReal))
          + ∑ r, (V r : EReal) * Ideal.exp ((S r : EReal) - (μ' : EReal))
        = (((∑ r, V r * Real.exp (S r)) * Real.exp (-μ') : ℝ) : EReal) := by
  obtain ⟨μ', hμ'⟩ := foldmax_coe S
  refine ⟨μ', by rw [hμ', max_bot_left], ?_, fun V => ?_⟩
  · rw [EReal.bot_sub, Ideal.exp_bot, mul_zero, zero_add, sum_exp_sub]
  · rw [EReal.bot_sub, Ideal.exp_bot, mul_zero, zero_add, sum_mul_exp_sub]

/-- A later chunk, from a state with real maximum `μ`, denominator `Lp·e^{−μ}` and numerators `Ap·e^{−μ}`: the new
    maximum is a real `μ'`, the denominator `(Lp + ∑ e^{S r})·e^{−μ'}`, each numerator `(Ap + ∑ V r·e^{S r})·e^{−μ'}`. -/
theorem online_next (S : ι → ℝ) (μ Lp : ℝ) : ∃ μ' : ℝ,
    max (μ : EReal) (Finset.univ.fold max (⊥ : EReal) (fun r => (S r : EReal))) = (μ' : EReal)
    ∧ ((Lp * Real.exp (-μ) : ℝ) : EReal) * Ideal.exp ((μ : EReal) - (μ' : EReal))
          + ∑ r, Ideal.exp ((S r : EReal) - (μ' : EReal))
        = (((Lp + ∑ r, Real.exp (S r)) * Real.exp (-μ') : ℝ) : EReal)
    ∧ ∀ (V : ι → ℝ) (Ap : ℝ), ((Ap * Real.exp (-μ) : ℝ) : EReal) * Ideal.exp ((μ : EReal) - (μ' : EReal))
          + ∑ r, (V r : EReal) * Ideal.exp ((S r : EReal) - (μ' : EReal))
        = (((Ap + ∑ r, V r * Real.exp (S r)) * Real.exp (-μ') : ℝ) : EReal) := by
  obtain ⟨μ₀, hμ₀⟩ := foldmax_coe S
  refine ⟨max μ μ₀, by rw [hμ₀, coe_max'], ?_, fun V Ap => ?_⟩
  · rw [rescale, sum_exp_sub, ← EReal.coe_add, add_mul]
  · rw [rescale, sum_mul_exp_sub, ← EReal.coe_add, add_mul]

/-- The dense program's normalized form: shift by the folded maximum, divide each weight by the sum from zero. -/
theorem dense_readout (S V : ι → ℝ) :
    ∑ k, (V k : EReal) * Ideal.div
        (Ideal.exp ((S k : EReal) - Finset.univ.fold max (⊥ : EReal) (fun k' => (S k' : EReal))))
        ((0 : EReal) + ∑ k', Ideal.exp ((S k' : EReal) - Finset.univ.fold max (⊥ : EReal) (fun k'' => (S k'' : EReal))))
      = ((readout S V : ℝ) : EReal) := by
  obtain ⟨μ, hμ⟩ := foldmax_coe S
  have hD : 0 < ∑ j, Real.exp (S j) := Finset.sum_pos (fun j _ => Real.exp_pos _) Finset.univ_nonempty
  have hE : 0 < Real.exp (-μ) := Real.exp_pos _
  have hne : (∑ j, Real.exp (S j)) * Real.exp (-μ) ≠ 0 := (mul_pos hD hE).ne'
  rw [hμ, zero_add, sum_exp_sub]
  simp only [Ideal.div_coe hne, exp_sub_coe, ← EReal.coe_mul, coe_sum]
  congr 1
  rw [readout, Finset.sum_div]
  refine Finset.sum_congr rfl (fun k _ => ?_)
  field_simp

end Online

/-- The streaming program's last step: numerator over denominator, the common factor `e^{−μ}` cancelling. -/
theorem final_div (A L μ : ℝ) (hL : 0 < L) :
    Ideal.div ((A * Real.exp (-μ) : ℝ) : EReal) ((L * Real.exp (-μ) : ℝ) : EReal) = ((A / L : ℝ) : EReal) := by
  have hE : 0 < Real.exp (-μ) := Real.exp_pos _
  rw [Ideal.div_coe (mul_pos hL hE).ne', ← EReal.coe_mul]
  congr 1
  have hL' : L ≠ 0 := hL.ne'
  have hE' : Real.exp (-μ) ≠ 0 := hE.ne'
  field_simp

/-! ## Chunks: 9216 tokens as four runs of 2304 -/

/-- Token `r` of chunk `t` (total in `t`: taken mod 9216, which changes nothing for `t < 4`). -/
def chunkIdx (t : ℕ) (r : Fin 2304) : Fin 9216 := ⟨(2304 * t + r.val) % 9216, Nat.mod_lt _ (by norm_num)⟩

theorem chunkIdx_val (t : ℕ) (ht : t < 4) (r : Fin 2304) : (chunkIdx t r).val = 2304 * t + r.val := by
  have hr := r.isLt
  exact Nat.mod_eq_of_lt (by omega)

/-- The sum of `f` over the first `k` chunks. -/
def part (f : Fin 9216 → ℝ) (k : ℕ) : ℝ := ∑ t ∈ Finset.range k, ∑ r : Fin 2304, f (chunkIdx t r)

theorem part_zero (f : Fin 9216 → ℝ) : part f 0 = 0 := by
  rw [part, Finset.range_zero, Finset.sum_empty]

theorem part_succ (f : Fin 9216 → ℝ) (k : ℕ) : part f (k + 1) = part f k + ∑ r : Fin 2304, f (chunkIdx k r) := by
  rw [part, part, Finset.sum_range_succ]

/-- A token is a chunk number below four and a place in the chunk: `j = 2304·t + r`. -/
private def chunkEquiv : Fin 4 × Fin 2304 ≃ Fin 9216 where
  toFun p := ⟨2304 * p.1.val + p.2.val, by have h1 := p.1.isLt; have h2 := p.2.isLt; omega⟩
  invFun j := (⟨j.val / 2304, by have h := j.isLt; omega⟩, ⟨j.val % 2304, Nat.mod_lt _ (by norm_num)⟩)
  left_inv p := by
    have h1 := p.1.isLt
    have h2 := p.2.isLt
    refine Prod.ext (Fin.ext ?_) (Fin.ext ?_)
    · show (2304 * p.1.val + p.2.val) / 2304 = p.1.val
      omega
    · show (2304 * p.1.val + p.2.val) % 2304 = p.2.val
      omega
  right_inv j := by
    refine Fin.ext ?_
    show 2304 * (j.val / 2304) + j.val % 2304 = j.val
    omega

/-- Four chunks are all the tokens. -/
theorem part_four (f : Fin 9216 → ℝ) : part f 4 = ∑ j, f j := by
  rw [part, Finset.sum_range (fun t => ∑ r : Fin 2304, f (chunkIdx t r)), ← Fintype.sum_prod_type']
  refine Fintype.sum_equiv chunkEquiv _ _ (fun p => ?_)
  congr 1
  exact Fin.ext (chunkIdx_val _ p.1.isLt _)

/-- A sum of exponentials over the tokens is positive. -/
theorem sum_exp_pos (S : Fin 9216 → ℝ) : 0 < ∑ j, Real.exp (S j) :=
  Finset.sum_pos (fun j _ => Real.exp_pos _) ⟨⟨0, by norm_num⟩, Finset.mem_univ _⟩

end Cert.Softmax

end
-- ==== Proof.Consts.lean ====
/-
  The float literals the two programs spell, as the extended reals their bit patterns denote: −∞ the bottom
  element, +0.0 zero, and the dyadics 1, 2, 1/8 and 8 exactly.
-/
import Idealize.ShloMosaic.PureOps.Ideal

noncomputable section

namespace Cert.Consts

open Idealize.ShloMosaic

theorem ofBits_neg_inf : Ideal.ofBits .f32 0xFF800000#32 = (⊥ : EReal) := by
  simp [Ideal.ofBits, Ideal.ieee]

theorem ofBits_zero : Ideal.ofBits .f32 0x00000000#32 = (0 : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

end Cert.Consts

end
-- ==== Proof.Step.lean ====
/-
  One grid step of the streaming program at one pixel, over real data.

  When the chunk of keys, the queries and the chunk of values hold reals, the step's three updates at pixel `q` are:
  a real new maximum `μ'`; the new denominator `(carried sum + ∑_r e^{score r}) · e^{−μ'}`; for each value channel
  the new numerator `(carried sum + ∑_r value r · e^{score r}) · e^{−μ'}` — from the reset state on a batch's first
  chunk (carried sums zero), from a state with real maximum on the later ones. On the last chunk the read-out row is
  numerator over denominator, the factor `e^{−μ}` cancelling.
-/
import proofs.«164901_g25348896981519_cont_9to1_2299_2_alg».proof.Proof.Payload
import proofs.«164901_g25348896981519_cont_9to1_2299_2_alg».proof.Proof.Softmax
import proofs.«164901_g25348896981519_cont_9to1_2299_2_alg».proof.Proof.Consts
import Idealize.ShloMosaic.Lib.ValueIdx

noncomputable section

namespace Cert.KernelIdeal.Step

open Idealize.ShloMosaic Idealize.ShloMosaic.ValueIdx Cert.KernelIdeal Cert.KernelIdeal.Gen Cert.KernelIdeal.Pay Cert.Softmax

/-- With real keys and queries the score of token `r` at pixel `q` is the real `sc`. -/
private theorem score_real (x0 : FVec Ideal S1x64x2304 .f32) (x1 : FVec Ideal S1x64x576 .f32)
    (K : Fin 64 → Fin 2304 → ℝ) (Q : Fin 64 → Fin 576 → ℝ)
    (hK : ∀ ch r, x0 (ix3 0 ch r) = ((K ch r : ℝ) : EReal)) (hQ : ∀ ch q, x1 (ix3 0 ch q) = ((Q ch q : ℝ) : EReal))
    (r : Fin 2304) (q : Fin 576) :
    k0_pay8 (F := Ideal) x0 x1 (ix2 r q) = ((sc (fun ch => K ch r) (fun ch => Q ch q) : ℝ) : EReal) := by
  rw [scores_apply]
  simp only [hK, hQ, Cert.Consts.ofBits_two, Cert.Consts.ofBits_one, Cert.Consts.ofBits_eighth]
  exact sc_stream (fun ch => K ch r) (fun ch => Q ch q)

/-- A batch's first chunk, from the reset state. -/
theorem step_first (x0 : FVec Ideal S1x64x2304 .f32) (x1 : FVec Ideal S1x64x576 .f32) (x2 : FVec Ideal S1x512x2304 .f32)
    (K : Fin 64 → Fin 2304 → ℝ) (Q : Fin 64 → Fin 576 → ℝ) (W : Fin 512 → Fin 2304 → ℝ)
    (hK : ∀ ch r, x0 (ix3 0 ch r) = ((K ch r : ℝ) : EReal)) (hQ : ∀ ch q, x1 (ix3 0 ch q) = ((Q ch q : ℝ) : EReal))
    (hW : ∀ ch r, x2 (ix3 0 ch r) = ((W ch r : ℝ) : EReal)) (q : Fin 576) :
    ∃ μ' : ℝ,
      k0_pay1 (F := Ideal) (k0_pay9 (F := Ideal) x0 x1 (k0_pay5 (F := Ideal))) (ix2 0 q) = ((μ' : ℝ) : EReal)
      ∧ k0_pay12 (F := Ideal) x0 x1 (k0_pay5 (F := Ideal)) (k0_pay6 (F := Ideal)) (ix2 0 q)
          = (((∑ r : Fin 2304, Real.exp (sc (fun ch => K ch r) (fun ch => Q ch q))) * Real.exp (-μ') : ℝ) : EReal)
      ∧ ∀ ch : Fin 512,
          k0_pay2 (F := Ideal) (k0_pay10 (F := Ideal) x0 x1 (k0_pay5 (F := Ideal))) (k0_pay11 (F := Ideal) x0 x1 (k0_pay5 (F := Ideal))) x2 (k0_pay7 (F := Ideal)) (ix2 ch q)
            = (((∑ r : Fin 2304, W ch r * Real.exp (sc (fun ch => K ch r) (fun ch => Q ch q))) * Real.exp (-μ') : ℝ) : EReal) := by
  haveI : Nonempty (Fin 2304) := ⟨⟨0, by norm_num⟩⟩
  obtain ⟨μ', h1, h2, h3⟩ := online_first (ι := Fin 2304) (fun r => sc (fun ch => K ch r) (fun ch => Q ch q))
  have hmax : k0_pay9 (F := Ideal) x0 x1 (k0_pay5 (F := Ideal)) (ix2 0 q) = ((μ' : ℝ) : EReal) := by
    rw [newmax_apply, reset_max_apply, Cert.Consts.ofBits_neg_inf]
    simp only [score_real x0 x1 K Q hK hQ]
    exact h1
  refine ⟨μ', ?_, ?_, fun ch => ?_⟩
  · rw [keep_apply]
    exact hmax
  · rw [newsum_apply, reset_sum_apply, rescale_apply, reset_max_apply, hmax, Cert.Consts.ofBits_zero,
      Cert.Consts.ofBits_neg_inf]
    simp only [weights_apply, hmax, score_real x0 x1 K Q hK hQ]
    exact h2
  · rw [newacc_apply, reset_acc_apply, rescale_apply, reset_max_apply, hmax, Cert.Consts.ofBits_zero,
      Cert.Consts.ofBits_neg_inf]
    simp only [weights_apply, hmax, hW, score_real x0 x1 K Q hK hQ]
    exact h3 (fun r => W ch r)

/-- A later chunk, from a state with real maximum `μ`, denominator `Lp·e^{−μ}`, numerators `Ap ch·e^{−μ}` at pixel `q`. -/
theorem step_next (x0 : FVec Ideal S1x64x2304 .f32) (x1 : FVec Ideal S1x64x576 .f32) (x2 : FVec Ideal S1x512x2304 .f32)
    (mp lp : FVec Ideal S1x576 .f32) (ap : FVec Ideal S512x576 .f32)
    (K : Fin 64 → Fin 2304 → ℝ) (Q : Fin 64 → Fin 576 → ℝ) (W : Fin 512 → Fin 2304 → ℝ)
    (hK : ∀ ch r, x0 (ix3 0 ch r) = ((K ch r : ℝ) : EReal)) (hQ : ∀ ch q, x1 (ix3 0 ch q) = ((Q ch q : ℝ) : EReal))
    (hW : ∀ ch r, x2 (ix3 0 ch r) = ((W ch r : ℝ) : EReal)) (q : Fin 576)
    (μ Lp : ℝ) (Ap : Fin 512 → ℝ)
    (hm : mp (ix2 0 q) = ((μ : ℝ) : EReal)) (hl : lp (ix2 0 q) = ((Lp * Real.exp (-μ) : ℝ) : EReal))
    (ha : ∀ ch : Fin 512, ap (ix2 ch q) = ((Ap ch * Real.exp (-μ) : ℝ) : EReal)) :
    ∃ μ' : ℝ,
      k0_pay1 (F := Ideal) (k0_pay9 (F := Ideal) x0 x1 mp) (ix2 0 q) = ((μ' : ℝ) : EReal)
      ∧ k0_pay12 (F := Ideal) x0 x1 mp lp (ix2 0 q)
          = (((Lp + ∑ r : Fin 2304, Real.exp (sc (fun ch => K ch r) (fun ch => Q ch q))) * Real.exp (-μ') : ℝ) : EReal)
      ∧ ∀ ch : Fin 512,
          k0_pay2 (F := Ideal) (k0_pay10 (F := Ideal) x0 x1 mp) (k0_pay11 (F := Ideal) x0 x1 mp) x2 ap (ix2 ch q)
            = (((Ap ch + ∑ r : Fin 2304, W ch r * Real.exp (sc (fun ch => K ch r) (fun ch => Q ch q))) * Real.exp (-μ') : ℝ) : EReal) := by
  haveI : Nonempty (Fin 2304) := ⟨⟨0, by norm_num⟩⟩
  obtain ⟨μ', h1, h2, h3⟩ := online_next (ι := Fin 2304) (fun r => sc (fun ch => K ch r) (fun ch => Q ch q)) μ Lp
  have hmax : k0_pay9 (F := Ideal) x0 x1 mp (ix2 0 q) = ((μ' : ℝ) : EReal) := by
    rw [newmax_apply, hm, Cert.Consts.ofBits_neg_inf]
    simp only [score_real x0 x1 K Q hK hQ]
    exact h1
  refine ⟨μ', ?_, ?_, fun ch => ?_⟩
  · rw [keep_apply]
    exact hmax
  · rw [newsum_apply, hl, rescale_apply, hm, hmax]
    simp only [weights_apply, hmax, score_real x0 x1 K Q hK hQ]
    exact h2
  · rw [newacc_apply, ha, rescale_apply, hm, hmax]
    simp only [weights_apply, hmax, hW, score_real x0 x1 K Q hK hQ]
    exact h3 (fun r => W ch r) (Ap ch)

/-- The read-out row of the last chunk: numerator over denominator. -/
theorem step_out (acc : FVec Ideal S512x576 .f32) (l : FVec Ideal S1x576 .f32) (A L μ : ℝ) (hL : 0 < L)
    (ch : Fin 512) (q : Fin 576)
    (ha : acc (ix2 ch q) = ((A * Real.exp (-μ) : ℝ) : EReal)) (hl : l (ix2 0 q) = ((L * Real.exp (-μ) : ℝ) : EReal)) :
    k0_pay3 (F := Ideal) acc l (ix3 0 ch q) = ((A / L : ℝ) : EReal) := by
  rw [out_top_apply, ha, hl]
  exact final_div A L μ hL

end Cert.KernelIdeal.Step

end
-- ==== Proof.Reshape.lean ====
/-
  Two changes of layout read at an index. Flattening the 24 × 24 image to 576 tokens and back moves no element: pixel
  (y, x) is token 24·y + x, both being the same row-major position. And a change of layout of an array of reals is an
  array of reals.
-/
import Idealize.ShloMosaic.Lib.Pipeline.Value
import Idealize.ShloMosaic.Lib.ValueIdx
import proofs.«164901_g25348896981519_cont_9to1_2299_2_alg».proof.Proof.Layout

noncomputable section

namespace Cert.Reshape

open Idealize.ShloMosaic Idealize.ShloMosaic.ValueIdx Cert.Layout

/-- The image layout of a flat array: entry (b, k, y, x) is the flat entry (b, k, 24·y + x). -/
theorem image_of_flat {α : Type} (v : (⟨3, ![4, 1024, 576]⟩ : Shape).Idx → α)
    (h : (⟨3, ![4, 1024, 576]⟩ : Shape).ShapeCasts (⟨4, ![4, 1024, 24, 24]⟩ : Shape))
    (b : Fin 4) (k : Fin 1024) (y x : Fin 24) :
    shapeCast (⟨4, ![4, 1024, 24, 24]⟩ : Shape) v h (ix4 b k y x) = v (ix3 b k (pix y x)) := by
  -- both indices sit at the row-major position ((b·1024 + k)·24 + y)·24 + x = (b·1024 + k)·576 + (24·y + x)
  refine shapeCast_apply v h (ix4 b k y x) (ix3 b k (pix y x)) ?_
  rw [Shape.rowMajor_val_three, Shape.rowMajor_val_four]
  show (b.val * 1024 + k.val) * 576 + (pix y x).val = ((b.val * 1024 + k.val) * 24 + y.val) * 24 + x.val
  rw [pix_val]
  omega

/-- The flat layout of an image array: entry (b, ch, 24·y + x) is the image entry (b, ch, y, x). -/
theorem flat_of_image {α : Type} (v : (⟨4, ![4, 512, 24, 24]⟩ : Shape).Idx → α)
    (h : (⟨4, ![4, 512, 24, 24]⟩ : Shape).ShapeCasts (⟨3, ![4, 512, 576]⟩ : Shape))
    (b : Fin 4) (ch : Fin 512) (y x : Fin 24) :
    shapeCast (⟨3, ![4, 512, 576]⟩ : Shape) v h (ix3 b ch (pix y x)) = v (ix4 b ch y x) := by
  -- both indices sit at the row-major position (b·512 + ch)·576 + (24·y + x) = ((b·512 + ch)·24 + y)·24 + x
  refine shapeCast_apply v h (ix3 b ch (pix y x)) (ix4 b ch y x) ?_
  rw [Shape.rowMajor_val_three, Shape.rowMajor_val_four]
  show ((b.val * 512 + ch.val) * 24 + y.val) * 24 + x.val = (b.val * 512 + ch.val) * 576 + (pix y x).val
  rw [pix_val]
  omega

/-- A change of layout of an array of reals holds reals. -/
theorem cast_real {s t : Shape} (v : s.Idx → EReal) (h : s.ShapeCasts t)
    (hv : ∀ i, ∃ r : ℝ, v i = (r : EReal)) : ∀ j, ∃ r : ℝ, shapeCast t v h j = (r : EReal) := by
  -- each entry of the re-indexed array is an entry of the original
  intro j
  unfold shapeCast
  exact hv _

end Cert.Reshape

end
-- ==== Proof.KernelValue.lean ====
/-
  The streaming program's result, read off its run.

  Batch b is served by the four consecutive grid steps 4b, 4b+1, 4b+2, 4b+3, one per chunk of 2304 memory tokens.
  After step 4b+t the carried buffers hold, for every pixel q, a real running maximum μ, the denominator
  (sum over the first t+1 chunks of e^{score}) · e^{−μ}, and for every value channel the numerator
  (sum over those chunks of value · e^{score}) · e^{−μ}: by induction on the step, the first chunk from the reset
  state and each later one from the state before it. The last step of a batch writes numerator over denominator —
  the common factor cancels, four chunks are all the tokens, so it is the softmax read-out — into rows 0…511 of the
  batch's block of the result and the query values into rows 512…1023; the four blocks tile the result array, and the
  image layout of that array is the program's result.
-/
import proofs.«164901_g25348896981519_cont_9to1_2299_2_alg».proof.Proof.Pieces
import proofs.«164901_g25348896981519_cont_9to1_2299_2_alg».proof.Proof.Payload
import proofs.«164901_g25348896981519_cont_9to1_2299_2_alg».proof.Proof.Softmax
import proofs.«164901_g25348896981519_cont_9to1_2299_2_alg».proof.Proof.Step
import proofs.«164901_g25348896981519_cont_9to1_2299_2_alg».proof.Proof.Consts
import proofs.«164901_g25348896981519_cont_9to1_2299_2_alg».proof.Proof.Layout
import proofs.«164901_g25348896981519_cont_9to1_2299_2_alg».proof.Proof.Reshape
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Idealize.ShloMosaic.ValueIdx Cert.Layout Cert.Softmax
open Cert.KernelIdeal.Pay Cert.KernelIdeal.Pieces

variable (m : (ℓ : Loc nD τ sig) → Buf (Elt Ideal) ℓ) (ρ : Dev nD → PrngReg)

/-! ## The flattened inputs, as the region finds them -/

/-- The memory keys, flattened over the tokens. -/
abbrev mkf (c : Dev nD) : FVec Ideal S4x64x9216 .f32 := V m c main_call0_v0
/-- The query keys, flattened over the pixels. -/
abbrev qkf (c : Dev nD) : FVec Ideal S4x64x576 .f32 := V m c main_call0_v1
/-- The memory values, flattened over the tokens. -/
abbrev mvf (c : Dev nD) : FVec Ideal S4x512x9216 .f32 := V m c main_call0_v2
/-- The query values, flattened over the pixels. -/
abbrev qvf (c : Dev nD) : FVec Ideal S4x512x576 .f32 := V m c main_call0_v3

theorem mkf_eq (c : Dev nD) : mkf m c = shapeCast S4x64x9216 (m ((c : Thread nD τ).loc main_arg0)) shapeCasts_S4x64x16x24x24_S4x64x9216 := by
  show StableHlo.after hostOps0 (fun b => m (c, b)) (Proc.devRef .tc main_call0_v0) = _
  after_results; rfl
theorem qkf_eq (c : Dev nD) : qkf m c = shapeCast S4x64x576 (m ((c : Thread nD τ).loc main_arg1)) shapeCasts_S4x64x24x24_S4x64x576 := by
  show StableHlo.after hostOps0 (fun b => m (c, b)) (Proc.devRef .tc main_call0_v1) = _
  after_results; rfl
theorem mvf_eq (c : Dev nD) : mvf m c = shapeCast S4x512x9216 (m ((c : Thread nD τ).loc main_arg2)) shapeCasts_S4x512x16x24x24_S4x512x9216 := by
  show StableHlo.after hostOps0 (fun b => m (c, b)) (Proc.devRef .tc main_call0_v2) = _
  after_results; rfl
theorem qvf_eq (c : Dev nD) : qvf m c = shapeCast S4x512x576 (m ((c : Thread nD τ).loc main_arg3)) shapeCasts_S4x512x24x24_S4x512x576 := by
  show StableHlo.after hostOps0 (fun b => m (c, b)) (Proc.devRef .tc main_call0_v3) = _
  after_results; rfl

/-! ## The blocks a step is handed -/

/-- The chunk of keys, the queries, the chunk of values and the query values a step is handed. -/
abbrev kblk (c : Dev nD) (t : Fin cfg0.N) : FVec Ideal S1x64x2304 .f32 := iblk m c 0 t
abbrev qblk (c : Dev nD) (t : Fin cfg0.N) : FVec Ideal S1x64x576 .f32 := iblk m c 1 t
abbrev vblk (c : Dev nD) (t : Fin cfg0.N) : FVec Ideal S1x512x2304 .f32 := iblk m c 2 t
abbrev qvblk (c : Dev nD) (t : Fin cfg0.N) : FVec Ideal S1x512x576 .f32 := iblk m c 3 t

/-- The batch a step serves. -/
def batchOf (t : Fin cfg0.N) : Fin 4 := ⟨t.val / 4, by have := t.isLt; have hN : cfg0.N = 16 := N_0; omega⟩

/-- Where the four input windows sit at a step: batch t/4, and for the chunked ones chunk t%4. -/
theorem idx_facts : ∀ t : Fin cfg0.N,
    (win0_0.index t 0 = t.val / 4 ∧ win0_0.index t 1 = 0 ∧ win0_0.index t 2 = t.val % 4)
    ∧ (win0_1.index t 0 = t.val / 4 ∧ win0_1.index t 1 = 0 ∧ win0_1.index t 2 = 0)
    ∧ (win0_2.index t 0 = t.val / 4 ∧ win0_2.index t 1 = 0 ∧ win0_2.index t 2 = t.val % 4)
    ∧ (win0_3.index t 0 = t.val / 4 ∧ win0_3.index t 1 = 0 ∧ win0_3.index t 2 = 0)
    ∧ (win0_4.index t 0 = t.val / 4 ∧ win0_4.index t 1 = 0 ∧ win0_4.index t 2 = 0) :=
  (by decide +kernel : ∀ t : Fin grid0.N, _)

theorem kblk_apply (c : Dev nD) (t : Fin cfg0.N) (b : Fin 4) (hb : b.val = t.val / 4) (ch : Fin 64) (r : Fin 2304) :
    kblk m c t (ix3 0 ch r) = mkf m c (ix3 b ch (chunkIdx (t.val % 4) r)) := by
  have hi := (idx_facts t).1
  unfold kblk iblk
  rw [View.read_apply]
  show V m c main_call0_v0 _ = V m c main_call0_v0 _
  congr 1
  funext a
  apply Fin.ext
  have hr := chunkIdx_val (t.val % 4) (Nat.mod_lt _ (by norm_num)) r
  match a with
  | ⟨0, _⟩ => show win0_0.index t 0 * 1 + 1 * 0 = b.val; rw [hi.1]; omega
  | ⟨1, _⟩ => show win0_0.index t 1 * 64 + 1 * ch.val = ch.val; rw [hi.2.1]; omega
  | ⟨2, _⟩ => show win0_0.index t 2 * 2304 + 1 * r.val = (chunkIdx (t.val % 4) r).val; rw [hi.2.2, hr]; omega

/-! The other three blocks. -/

theorem qblk_apply (c : Dev nD) (t : Fin cfg0.N) (b : Fin 4) (hb : b.val = t.val / 4) (ch : Fin 64) (r : Fin 576) :
    qblk m c t (ix3 0 ch r) = qkf m c (ix3 b ch r) := by
  have hi := (idx_facts t).2.1
  unfold qblk iblk
  rw [View.read_apply]
  show V m c main_call0_v1 _ = V m c main_call0_v1 _
  congr 1
  funext a
  apply Fin.ext

  match a with
  | ⟨0, _⟩ => show win0_1.index t 0 * 1 + 1 * 0 = b.val; rw [hi.1]; omega
  | ⟨1, _⟩ => show win0_1.index t 1 * 64 + 1 * ch.val = ch.val; rw [hi.2.1]; omega
  | ⟨2, _⟩ => show win0_1.index t 2 * 576 + 1 * r.val = r.val; rw [hi.2.2]; omega

theorem vblk_apply (c : Dev nD) (t : Fin cfg0.N) (b : Fin 4) (hb : b.val = t.val / 4) (ch : Fin 512) (r : Fin 2304) :
    vblk m c t (ix3 0 ch r) = mvf m c (ix3 b ch (chunkIdx (t.val % 4) r)) := by
  have hi := (idx_facts t).2.2.1
  unfold vblk iblk
  rw [View.read_apply]
  show V m c main_call0_v2 _ = V m c main_call0_v2 _
  congr 1
  funext a
  apply Fin.ext
  have hr := chunkIdx_val (t.val % 4) (Nat.mod_lt _ (by norm_num)) r
  match a with
  | ⟨0, _⟩ => show win0_2.index t 0 * 1 + 1 * 0 = b.val; rw [hi.1]; omega
  | ⟨1, _⟩ => show win0_2.index t 1 * 512 + 1 * ch.val = ch.val; rw [hi.2.1]; omega
  | ⟨2, _⟩ => show win0_2.index t 2 * 2304 + 1 * r.val = (chunkIdx (t.val % 4) r).val; rw [hi.2.2, hr]; omega

theorem qvblk_apply (c : Dev nD) (t : Fin cfg0.N) (b : Fin 4) (hb : b.val = t.val / 4) (ch : Fin 512) (r : Fin 576) :
    qvblk m c t (ix3 0 ch r) = qvf m c (ix3 b ch r) := by
  have hi := (idx_facts t).2.2.2.1
  unfold qvblk iblk
  rw [View.read_apply]
  show V m c main_call0_v3 _ = V m c main_call0_v3 _
  congr 1
  funext a
  apply Fin.ext

  match a with
  | ⟨0, _⟩ => show win0_3.index t 0 * 1 + 1 * 0 = b.val; rw [hi.1]; omega
  | ⟨1, _⟩ => show win0_3.index t 1 * 512 + 1 * ch.val = ch.val; rw [hi.2.1]; omega
  | ⟨2, _⟩ => show win0_3.index t 2 * 576 + 1 * r.val = r.val; rw [hi.2.2]; omega

/-! ## The carried state after a step, and how a step makes it -/

/-- The running maximum, denominator and numerator after step `n`, and the result block's staging contents. -/
abbrev mAt (c : Dev nD) (n : ℕ) (hn : n < cfg0.N) : FVec Ideal S1x576 .f32 := (outsAt0 m c n hn).2.1
abbrev lAt (c : Dev nD) (n : ℕ) (hn : n < cfg0.N) : FVec Ideal S1x576 .f32 := (outsAt0 m c n hn).2.2.1
abbrev aAt (c : Dev nD) (n : ℕ) (hn : n < cfg0.N) : FVec Ideal S512x576 .f32 := (outsAt0 m c n hn).2.2.2
abbrev oAt (c : Dev nD) (n : ℕ) (hn : n < cfg0.N) : Vec Ideal S1x1024x576 .f32 := (outsAt0 m c n hn).1

/-- First chunk: the new maximum over the reset one. -/
theorem m_A (c : Dev nD) (t : Fin cfg0.N) (h0 : t.val % 4 = 0) (h1 : ¬t.val % 4 = 3) :
    mAt m c t.val t.isLt = k0_pay1 (F := Ideal) (k0_pay9 (F := Ideal) (kblk m c t) (qblk m c t) (k0_pay5 (F := Ideal))) := by
  show (outsAt0 m c t.val t.isLt).2.1 = _
  rw [outsAt0_A m c t h0 h1]
  dsimp only
  exact soutA_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)

/-- First chunk: the new denominator over the reset one. -/
theorem l_A (c : Dev nD) (t : Fin cfg0.N) (h0 : t.val % 4 = 0) (h1 : ¬t.val % 4 = 3) :
    lAt m c t.val t.isLt = k0_pay12 (F := Ideal) (kblk m c t) (qblk m c t) (k0_pay5 (F := Ideal)) (k0_pay6 (F := Ideal)) := by
  show (outsAt0 m c t.val t.isLt).2.2.1 = _
  rw [outsAt0_A m c t h0 h1]
  dsimp only
  exact soutA_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)

/-- First chunk: the new numerator over the reset one. -/
theorem a_A (c : Dev nD) (t : Fin cfg0.N) (h0 : t.val % 4 = 0) (h1 : ¬t.val % 4 = 3) :
    aAt m c t.val t.isLt = k0_pay2 (F := Ideal) (k0_pay10 (F := Ideal) (kblk m c t) (qblk m c t) (k0_pay5 (F := Ideal))) (k0_pay11 (F := Ideal) (kblk m c t) (qblk m c t) (k0_pay5 (F := Ideal))) (vblk m c t) (k0_pay7 (F := Ideal)) := by
  show (outsAt0 m c t.val t.isLt).2.2.2 = _
  rw [outsAt0_A m c t h0 h1]
  dsimp only
  exact soutA_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)

/-- Middle chunk: the new maximum over the one before. -/
theorem m_B (c : Dev nD) (t : Fin cfg0.N) (h0 : ¬t.val % 4 = 0) (h1 : ¬t.val % 4 = 3) :
    mAt m c t.val t.isLt = k0_pay1 (F := Ideal) (k0_pay9 (F := Ideal) (kblk m c t) (qblk m c t) (mAt m c (t.val - 1) (Nat.lt_of_le_of_lt (Nat.sub_le _ _) t.isLt))) := by
  show (outsAt0 m c t.val t.isLt).2.1 = _
  rw [outsAt0_B m c t h0 h1]
  dsimp only
  exact soutB_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- Middle chunk: the new denominator over the one before. -/
theorem l_B (c : Dev nD) (t : Fin cfg0.N) (h0 : ¬t.val % 4 = 0) (h1 : ¬t.val % 4 = 3) :
    lAt m c t.val t.isLt = k0_pay12 (F := Ideal) (kblk m c t) (qblk m c t) (mAt m c (t.val - 1) (Nat.lt_of_le_of_lt (Nat.sub_le _ _) t.isLt)) (lAt m c (t.val - 1) (Nat.lt_of_le_of_lt (Nat.sub_le _ _) t.isLt)) := by
  show (outsAt0 m c t.val t.isLt).2.2.1 = _
  rw [outsAt0_B m c t h0 h1]
  dsimp only
  exact soutB_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- Middle chunk: the new numerator over the one before. -/
theorem a_B (c : Dev nD) (t : Fin cfg0.N) (h0 : ¬t.val % 4 = 0) (h1 : ¬t.val % 4 = 3) :
    aAt m c t.val t.isLt = k0_pay2 (F := Ideal) (k0_pay10 (F := Ideal) (kblk m c t) (qblk m c t) (mAt m c (t.val - 1) (Nat.lt_of_le_of_lt (Nat.sub_le _ _) t.isLt))) (k0_pay11 (F := Ideal) (kblk m c t) (qblk m c t) (mAt m c (t.val - 1) (Nat.lt_of_le_of_lt (Nat.sub_le _ _) t.isLt))) (vblk m c t) (aAt m c (t.val - 1) (Nat.lt_of_le_of_lt (Nat.sub_le _ _) t.isLt)) := by
  show (outsAt0 m c t.val t.isLt).2.2.2 = _
  rw [outsAt0_B m c t h0 h1]
  dsimp only
  exact soutB_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- Last chunk: the new maximum over the one before. -/
theorem m_C (c : Dev nD) (t : Fin cfg0.N) (h0 : ¬t.val % 4 = 0) (h1 : t.val % 4 = 3) :
    mAt m c t.val t.isLt = k0_pay1 (F := Ideal) (k0_pay9 (F := Ideal) (kblk m c t) (qblk m c t) (mAt m c (t.val - 1) (Nat.lt_of_le_of_lt (Nat.sub_le _ _) t.isLt))) := by
  show (outsAt0 m c t.val t.isLt).2.1 = _
  rw [outsAt0_C m c t h0 h1]
  dsimp only
  exact soutC_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- Last chunk: the new denominator over the one before. -/
theorem l_C (c : Dev nD) (t : Fin cfg0.N) (h0 : ¬t.val % 4 = 0) (h1 : t.val % 4 = 3) :
    lAt m c t.val t.isLt = k0_pay12 (F := Ideal) (kblk m c t) (qblk m c t) (mAt m c (t.val - 1) (Nat.lt_of_le_of_lt (Nat.sub_le _ _) t.isLt)) (lAt m c (t.val - 1) (Nat.lt_of_le_of_lt (Nat.sub_le _ _) t.isLt)) := by
  show (outsAt0 m c t.val t.isLt).2.2.1 = _
  rw [outsAt0_C m c t h0 h1]
  dsimp only
  exact soutC_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- Last chunk: the new numerator over the one before. -/
theorem a_C (c : Dev nD) (t : Fin cfg0.N) (h0 : ¬t.val % 4 = 0) (h1 : t.val % 4 = 3) :
    aAt m c t.val t.isLt = k0_pay2 (F := Ideal) (k0_pay10 (F := Ideal) (kblk m c t) (qblk m c t) (mAt m c (t.val - 1) (Nat.lt_of_le_of_lt (Nat.sub_le _ _) t.isLt))) (k0_pay11 (F := Ideal) (kblk m c t) (qblk m c t) (mAt m c (t.val - 1) (Nat.lt_of_le_of_lt (Nat.sub_le _ _) t.isLt))) (vblk m c t) (aAt m c (t.val - 1) (Nat.lt_of_le_of_lt (Nat.sub_le _ _) t.isLt)) := by
  show (outsAt0 m c t.val t.isLt).2.2.2 = _
  rw [outsAt0_C m c t h0 h1]
  dsimp only
  exact soutC_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- Last chunk: the result block, the query values over rows 512…1023 and numerator over denominator over rows 0…511. -/
theorem o_C (c : Dev nD) (t : Fin cfg0.N) (h0 : ¬t.val % 4 = 0) (h1 : t.val % 4 = 3) :
    oAt m c t.val t.isLt
      = View.canon [⟨Rect.unit (s := S1x1024x576) ![0, 512, 0] S1x512x576.size inb_S1x1024x576_S1x512x576_0_512_0, k0_pay4 (F := Ideal) (qvblk m c t)⟩,
          ⟨Rect.unit (s := S1x1024x576) ![0, 0, 0] S1x512x576.size inb_S1x1024x576_S1x512x576_0_0_0,
            k0_pay3 (F := Ideal) (k0_pay2 (F := Ideal) (k0_pay10 (F := Ideal) (kblk m c t) (qblk m c t) (mAt m c (t.val - 1) (Nat.lt_of_le_of_lt (Nat.sub_le _ _) t.isLt))) (k0_pay11 (F := Ideal) (kblk m c t) (qblk m c t) (mAt m c (t.val - 1) (Nat.lt_of_le_of_lt (Nat.sub_le _ _) t.isLt))) (vblk m c t) (aAt m c (t.val - 1) (Nat.lt_of_le_of_lt (Nat.sub_le _ _) t.isLt))) (k0_pay12 (F := Ideal) (kblk m c t) (qblk m c t) (mAt m c (t.val - 1) (Nat.lt_of_le_of_lt (Nat.sub_le _ _) t.isLt)) (lAt m c (t.val - 1) (Nat.lt_of_le_of_lt (Nat.sub_le _ _) t.isLt)))⟩] := by
  show (outsAt0 m c t.val t.isLt).1 = _
  rw [outsAt0_C m c t h0 h1]
  dsimp only
  exact outC (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-! ## The invariant: after each step the carried state is the partial softmax sums, rescaled -/

section Invariant

variable (MK : Fin 4 → Fin 64 → Fin 9216 → ℝ) (QK : Fin 4 → Fin 64 → Fin 576 → ℝ) (MV : Fin 4 → Fin 512 → Fin 9216 → ℝ)

/-- The score of token `j` at pixel `q` in batch `b`. -/
def scoreR (b : Fin 4) (q : Fin 576) (j : Fin 9216) : ℝ := sc (fun ch => MK b ch j) (fun ch => QK b ch q)

/-- After step `n`, serving batch `b` with `k` chunks done: at every pixel a real maximum `μ`, the denominator the sum of
    e^{score} over those chunks times e^{−μ}, each numerator the sum of value · e^{score} over them times e^{−μ}. -/
def InvAt (c : Dev nD) (n : ℕ) (hn : n < cfg0.N) (b : Fin 4) (k : ℕ) : Prop :=
  ∀ q : Fin 576, ∃ μ : ℝ,
    mAt m c n hn (ix2 0 q) = ((μ : ℝ) : EReal)
    ∧ lAt m c n hn (ix2 0 q) = ((part (fun j => Real.exp (scoreR MK QK b q j)) k * Real.exp (-μ) : ℝ) : EReal)
    ∧ ∀ ch : Fin 512, aAt m c n hn (ix2 ch q) = ((part (fun j => MV b ch j * Real.exp (scoreR MK QK b q j)) k * Real.exp (-μ) : ℝ) : EReal)

theorem part_one (f : Fin 9216 → ℝ) (k : ℕ) (hk : k = 0) : part f (k + 1) = ∑ r : Fin 2304, f (chunkIdx k r) := by
  subst hk; rw [part_succ, part_zero, zero_add]

/-- A batch's first step establishes it with one chunk done. -/
theorem inv_first (c : Dev nD) (hMK : ∀ b ch j, mkf m c (ix3 b ch j) = ((MK b ch j : ℝ) : EReal))
    (hQK : ∀ b ch q, qkf m c (ix3 b ch q) = ((QK b ch q : ℝ) : EReal))
    (hMV : ∀ b ch j, mvf m c (ix3 b ch j) = ((MV b ch j : ℝ) : EReal))
    (t : Fin cfg0.N) (h0 : t.val % 4 = 0) (b : Fin 4) (hb : b.val = t.val / 4) :
    InvAt m MK QK MV c t.val t.isLt b (t.val % 4 + 1) := by
  have h1 : ¬t.val % 4 = 3 := by omega
  intro q
  obtain ⟨μ', e1, e2, e3⟩ := Step.step_first (kblk m c t) (qblk m c t) (vblk m c t)
    (fun ch r => MK b ch (chunkIdx (t.val % 4) r)) (fun ch q' => QK b ch q') (fun ch r => MV b ch (chunkIdx (t.val % 4) r))
    (fun ch r => (kblk_apply m c t b hb ch r).trans (hMK b ch _))
    (fun ch q' => (qblk_apply m c t b hb ch q').trans (hQK b ch q'))
    (fun ch r => (vblk_apply m c t b hb ch r).trans (hMV b ch _)) q
  refine ⟨μ', ?_, ?_, fun ch => ?_⟩
  · rw [m_A m c t h0 h1]; exact e1
  · rw [l_A m c t h0 h1, part_one _ _ h0]; exact e2
  · rw [a_A m c t h0 h1, part_one _ _ h0]; exact e3 ch

/-- A later step carries it on: one more chunk done. -/
theorem inv_next (c : Dev nD) (hMK : ∀ b ch j, mkf m c (ix3 b ch j) = ((MK b ch j : ℝ) : EReal))
    (hQK : ∀ b ch q, qkf m c (ix3 b ch q) = ((QK b ch q : ℝ) : EReal))
    (hMV : ∀ b ch j, mvf m c (ix3 b ch j) = ((MV b ch j : ℝ) : EReal))
    (t : Fin cfg0.N) (h0 : ¬t.val % 4 = 0) (b : Fin 4) (hb : b.val = t.val / 4)
    (ih : InvAt m MK QK MV c (t.val - 1) (Nat.lt_of_le_of_lt (Nat.sub_le _ _) t.isLt) b (t.val % 4)) :
    InvAt m MK QK MV c t.val t.isLt b (t.val % 4 + 1) := by
  intro q
  obtain ⟨μ, hm, hl, ha⟩ := ih q
  obtain ⟨μ', e1, e2, e3⟩ := Step.step_next (kblk m c t) (qblk m c t) (vblk m c t)
    (mAt m c (t.val - 1) (Nat.lt_of_le_of_lt (Nat.sub_le _ _) t.isLt)) (lAt m c (t.val - 1) (Nat.lt_of_le_of_lt (Nat.sub_le _ _) t.isLt)) (aAt m c (t.val - 1) (Nat.lt_of_le_of_lt (Nat.sub_le _ _) t.isLt))
    (fun ch r => MK b ch (chunkIdx (t.val % 4) r)) (fun ch q' => QK b ch q') (fun ch r => MV b ch (chunkIdx (t.val % 4) r))
    (fun ch r => (kblk_apply m c t b hb ch r).trans (hMK b ch _))
    (fun ch q' => (qblk_apply m c t b hb ch q').trans (hQK b ch q'))
    (fun ch r => (vblk_apply m c t b hb ch r).trans (hMV b ch _)) q
    μ (part (fun j => Real.exp (scoreR MK QK b q j)) (t.val % 4)) (fun ch => part (fun j => MV b ch j * Real.exp (scoreR MK QK b q j)) (t.val % 4)) hm hl ha
  by_cases h1 : t.val % 4 = 3
  · refine ⟨μ', ?_, ?_, fun ch => ?_⟩
    · rw [m_C m c t h0 h1]; exact e1
    · rw [l_C m c t h0 h1, part_succ]; exact e2
    · rw [a_C m c t h0 h1, part_succ]; exact e3 ch
  · refine ⟨μ', ?_, ?_, fun ch => ?_⟩
    · rw [m_B m c t h0 h1]; exact e1
    · rw [l_B m c t h0 h1, part_succ]; exact e2
    · rw [a_B m c t h0 h1, part_succ]; exact e3 ch

/-- So it holds after every step. -/
theorem inv_all (c : Dev nD) (hMK : ∀ b ch j, mkf m c (ix3 b ch j) = ((MK b ch j : ℝ) : EReal))
    (hQK : ∀ b ch q, qkf m c (ix3 b ch q) = ((QK b ch q : ℝ) : EReal))
    (hMV : ∀ b ch j, mvf m c (ix3 b ch j) = ((MV b ch j : ℝ) : EReal)) :
    ∀ (n : ℕ) (hn : n < cfg0.N) (b : Fin 4) (hb : b.val = n / 4), InvAt m MK QK MV c n hn b (n % 4 + 1)
  | 0, hn, b, hb => inv_first m MK QK MV c hMK hQK hMV ⟨0, hn⟩ rfl b hb
  | n + 1, hn, b, hb => by
    by_cases h0 : (n + 1) % 4 = 0
    · exact inv_first m MK QK MV c hMK hQK hMV ⟨n + 1, hn⟩ h0 b hb
    · have ih := inv_all c hMK hQK hMV n (Nat.lt_of_succ_lt hn) b (by omega)
      have hk : n % 4 + 1 = (n + 1) % 4 := by omega
      rw [hk] at ih
      exact inv_next m MK QK MV c hMK hQK hMV ⟨n + 1, hn⟩ h0 b hb ih

end Invariant

/-! ## The result block's two halves -/

theorem emb_top (ch : Fin 512) (q : Fin 576) :
    (Rect.unit (s := S1x1024x576) ![0, 0, 0] S1x512x576.size inb_S1x1024x576_S1x512x576_0_0_0).emb (ix3 (0 : Fin 1) ch q) = ix3 (0 : Fin 1) (topCh ch) q := by
  funext a; apply Fin.ext
  match a with
  | ⟨0, _⟩ => show 0 + 1 * 0 = 0; rfl
  | ⟨1, _⟩ => show 0 + 1 * ch.val = ch.val; omega
  | ⟨2, _⟩ => show 0 + 1 * q.val = q.val; omega

theorem emb_bot (ch : Fin 512) (q : Fin 576) :
    (Rect.unit (s := S1x1024x576) ![0, 512, 0] S1x512x576.size inb_S1x1024x576_S1x512x576_0_512_0).emb (ix3 (0 : Fin 1) ch q) = ix3 (0 : Fin 1) (botCh ch) q := by
  funext a; apply Fin.ext
  match a with
  | ⟨0, _⟩ => show 0 + 1 * 0 = 0; rfl
  | ⟨1, _⟩ => show 512 + 1 * ch.val = 512 + ch.val; omega
  | ⟨2, _⟩ => show 0 + 1 * q.val = q.val; omega

/-- Rows 512…1023 of a block whose last store is the lower half read that half. -/
theorem canon_bot {Val : EltTy → Type} [∀ e, Nonempty (Val e)] (wb : (Rect.unit (s := S1x1024x576) ![0, 512, 0] S1x512x576.size inb_S1x1024x576_S1x512x576_0_512_0).shape.Idx → Val .f32)
    (L : List (View.Piece Val S1x1024x576 .f32)) (ch : Fin 512) (q : Fin 576) :
    View.canon (⟨Rect.unit (s := S1x1024x576) ![0, 512, 0] S1x512x576.size inb_S1x1024x576_S1x512x576_0_512_0, wb⟩ :: L) (ix3 (0 : Fin 1) (botCh ch) q) = wb (ix3 0 ch q) := by
  have e := View.canon_cons_emb (Rect.unit (s := S1x1024x576) ![0, 512, 0] S1x512x576.size inb_S1x1024x576_S1x512x576_0_512_0) wb L (ix3 (0 : Fin 1) ch q)
  rw [emb_bot ch q] at e
  exact e

/-- Rows 0…511 are off the lower half. -/
theorem not_mem_bot (ch : Fin 512) (q : Fin 576) :
    (ix3 (0 : Fin 1) (topCh ch) q : S1x1024x576.Idx) ∉ (Rect.unit (s := S1x1024x576) ![0, 512, 0] S1x512x576.size inb_S1x1024x576_S1x512x576_0_512_0).set := by
  rw [Rect.mem_set_unit]
  intro h
  have h1 := (h 1).1
  have h2 : (512 : ℕ) ≤ ch.val := h1
  have := ch.isLt
  omega

/-- So they read the store before it, the upper half. -/
theorem canon_top {Val : EltTy → Type} [∀ e, Nonempty (Val e)] (wb : (Rect.unit (s := S1x1024x576) ![0, 512, 0] S1x512x576.size inb_S1x1024x576_S1x512x576_0_512_0).shape.Idx → Val .f32)
    (wt : (Rect.unit (s := S1x1024x576) ![0, 0, 0] S1x512x576.size inb_S1x1024x576_S1x512x576_0_0_0).shape.Idx → Val .f32)
    (L : List (View.Piece Val S1x1024x576 .f32)) (ch : Fin 512) (q : Fin 576) :
    View.canon (⟨Rect.unit (s := S1x1024x576) ![0, 512, 0] S1x512x576.size inb_S1x1024x576_S1x512x576_0_512_0, wb⟩ :: ⟨Rect.unit (s := S1x1024x576) ![0, 0, 0] S1x512x576.size inb_S1x1024x576_S1x512x576_0_0_0, wt⟩ :: L) (ix3 (0 : Fin 1) (topCh ch) q) = wt (ix3 0 ch q) := by
  have e0 := View.canon_cons_of_not_mem (⟨Rect.unit (s := S1x1024x576) ![0, 512, 0] S1x512x576.size inb_S1x1024x576_S1x512x576_0_512_0, wb⟩ : View.Piece Val S1x1024x576 .f32) (⟨Rect.unit (s := S1x1024x576) ![0, 0, 0] S1x512x576.size inb_S1x1024x576_S1x512x576_0_0_0, wt⟩ :: L) (not_mem_bot ch q)
  have e := View.canon_cons_emb (Rect.unit (s := S1x1024x576) ![0, 0, 0] S1x512x576.size inb_S1x1024x576_S1x512x576_0_0_0) wt L (ix3 (0 : Fin 1) ch q)
  rw [emb_top ch q] at e
  exact e0.trans e

section Result

variable (MK : Fin 4 → Fin 64 → Fin 9216 → ℝ) (QK : Fin 4 → Fin 64 → Fin 576 → ℝ) (MV : Fin 4 → Fin 512 → Fin 9216 → ℝ)

/-- The read-out rows a batch's last step writes are the softmax read-out. -/
theorem out_top (c : Dev nD) (hMK : ∀ b ch j, mkf m c (ix3 b ch j) = ((MK b ch j : ℝ) : EReal))
    (hQK : ∀ b ch q, qkf m c (ix3 b ch q) = ((QK b ch q : ℝ) : EReal))
    (hMV : ∀ b ch j, mvf m c (ix3 b ch j) = ((MV b ch j : ℝ) : EReal))
    (t : Fin cfg0.N) (h3 : t.val % 4 = 3) (b : Fin 4) (hb : b.val = t.val / 4) (ch : Fin 512) (q : Fin 576) :
    oAt m c t.val t.isLt (ix3 (0 : Fin 1) (topCh ch) q)
      = ((readout (scoreR MK QK b q) (fun j => MV b ch j) : ℝ) : EReal) := by
  have h0 : ¬t.val % 4 = 0 := by omega
  obtain ⟨μ, hm, hl, ha⟩ := inv_all m MK QK MV c hMK hQK hMV t.val t.isLt b hb q
  have hk : t.val % 4 + 1 = 4 := by omega
  rw [hk, part_four] at hl
  have ha' := ha ch
  rw [hk, part_four] at ha'
  rw [o_C m c t h0 h3, canon_top, ← a_C m c t h0 h3, ← l_C m c t h0 h3]
  exact Step.step_out (aAt m c t.val t.isLt) (lAt m c t.val t.isLt) _ _ μ (sum_exp_pos _) ch q ha' hl

/-- The copied rows are the batch's query values. -/
theorem out_bot (c : Dev nD) (t : Fin cfg0.N) (h3 : t.val % 4 = 3) (b : Fin 4) (hb : b.val = t.val / 4) (ch : Fin 512) (q : Fin 576) :
    oAt m c t.val t.isLt (ix3 (0 : Fin 1) (botCh ch) q) = qvf m c (ix3 b ch q) := by
  have h0 : ¬t.val % 4 = 0 := by omega
  rw [o_C m c t h0 h3, canon_bot, out_bot_apply]
  exact qvblk_apply m c t b hb ch q

/-- The flat result array: per batch, channels 0…511 the read-out, channels 512…1023 the query values. -/
def outSpec (c : Dev nD) : S4x1024x576.Idx → EReal := fun i =>
  if h : (i 1).val < 512 then
    ((readout (scoreR MK QK ⟨(i 0).val, (i 0).isLt⟩ ⟨(i 2).val, (i 2).isLt⟩) (fun j => MV ⟨(i 0).val, (i 0).isLt⟩ ⟨(i 1).val, h⟩ j) : ℝ) : EReal)
  else qvf m c (ix3 ⟨(i 0).val, (i 0).isLt⟩ ⟨(i 1).val - 512, by have : (i 1).val < 1024 := (i 1).isLt; omega⟩ ⟨(i 2).val, (i 2).isLt⟩)

theorem outSpec_top (c : Dev nD) (b : Fin 4) (ch : Fin 512) (q : Fin 576) :
    outSpec m MK QK MV c (ix3 b (topCh ch) q) = ((readout (scoreR MK QK b q) (fun j => MV b ch j) : ℝ) : EReal) := by
  unfold outSpec
  rw [dif_pos (show ((ix3 b (topCh ch) q : S4x1024x576.Idx) 1).val < 512 from ch.isLt)]
  rfl

theorem outSpec_bot (c : Dev nD) (b : Fin 4) (ch : Fin 512) (q : Fin 576) :
    outSpec m MK QK MV c (ix3 b (botCh ch) q) = qvf m c (ix3 b ch q) := by
  unfold outSpec
  rw [dif_neg (show ¬((ix3 b (botCh ch) q : S4x1024x576.Idx) 1).val < 512 from by show ¬(512 + ch.val < 512); omega)]
  congr 1
  funext a
  apply Fin.ext
  match a with
  | ⟨0, _⟩ => rfl
  | ⟨1, _⟩ => show 512 + ch.val - 512 = ch.val; omega
  | ⟨2, _⟩ => rfl

/-- Step `t`'s block of the flat result array is batch `t/4`'s. -/
theorem emb_blk (t : Fin cfg0.N) (b : Fin 4) (hb : b.val = t.val / 4) (k : Fin 1024) (q : Fin 576) :
    ((cfg0.win 4).blk t).view.emb (ix3 (0 : Fin 1) k q) = (ix3 b k q : S4x1024x576.Idx) := by
  have hi := (idx_facts t).2.2.2.2
  funext a
  apply Fin.ext
  match a with
  | ⟨0, _⟩ => show win0_4.index t 0 * 1 + 1 * 0 = b.val; rw [hi.1]; omega
  | ⟨1, _⟩ => show win0_4.index t 1 * 1024 + 1 * k.val = k.val; rw [hi.2.1]; omega
  | ⟨2, _⟩ => show win0_4.index t 2 * 576 + 1 * q.val = q.val; rw [hi.2.2]; omega

/-- What a batch's last step writes back is its block of the specification. -/
theorem flushed_eq (c : Dev nD) (hMK : ∀ b ch j, mkf m c (ix3 b ch j) = ((MK b ch j : ℝ) : EReal))
    (hQK : ∀ b ch q, qkf m c (ix3 b ch q) = ((QK b ch q : ℝ) : EReal))
    (hMV : ∀ b ch j, mvf m c (ix3 b ch j) = ((MV b ch j : ℝ) : EReal))
    (t : Fin cfg0.N) (hf : (cfg0.win 4).flush t = true) :
    (dats m 0 c).flushed 4 t = ((cfg0.win 4).blk t).view.read (Elt Ideal) (outSpec m MK QK MV c) := by
  have h3 : t.val % 4 = 3 := (flush0_4 t).mp hf
  have hN : cfg0.N = 16 := N_0
  show (cfg0.win 4).cut (grid0.coords t) ((dats m 0 c).after 4 t) = _
  rw [after0_4]
  funext y
  obtain ⟨y0, k, q, rfl⟩ : ∃ (y0 : Fin 1) (k : Fin 1024) (q : Fin 576), y = ix3 y0 k q := ⟨y 0, y 1, y 2, eq_ix3 y⟩
  obtain rfl : y0 = 0 := Subsingleton.elim _ _
  let b : Fin 4 := ⟨t.val / 4, by have := t.isLt; omega⟩
  have hb : b.val = t.val / 4 := rfl
  show oAt m c t.val t.isLt (ix3 (0 : Fin 1) k q) = outSpec m MK QK MV c (((cfg0.win 4).blk t).view.emb (ix3 (0 : Fin 1) k q))
  rw [emb_blk t b hb k q]
  rcases ch_cases k with ⟨ch, rfl⟩ | ⟨ch, rfl⟩
  · rw [outSpec_top]; exact out_top m MK QK MV c hMK hQK hMV t h3 b hb ch q
  · rw [outSpec_bot]; exact out_bot m c t h3 b hb ch q

/-- Every entry of the flat result array lies in the block its batch's last step writes back. -/
theorem cover (c : Dev nD) (i : S4x1024x576.Idx) :
    ∃ t : Fin cfg0.N, (cfg0.win 4).flush t = true ∧ i ∈ ((cfg0.win 4).blk t).view.set := by
  have hN : cfg0.N = 16 := N_0
  have i0 : (i 0).val < 4 := (i 0).isLt
  have i1 : (i 1).val < 1024 := (i 1).isLt
  have i2 : (i 2).val < 576 := (i 2).isLt
  let t : Fin cfg0.N := ⟨4 * (i 0).val + 3, by omega⟩
  have ht : t.val = 4 * (i 0).val + 3 := rfl
  have hi := (idx_facts t).2.2.2.2
  refine ⟨t, (flush0_4 t).mpr (by omega), ?_⟩
  show i ∈ ((View.whole main_call0_v4).slice (win0_4.rect t)).set
  rw [View.set_slice_whole, Rect.mem_set_unit]
  intro a
  match a with
  | ⟨0, _⟩ => show win0_4.index t 0 * 1 ≤ (i 0).val ∧ (i 0).val < win0_4.index t 0 * 1 + 1; rw [hi.1]; omega
  | ⟨1, _⟩ => show win0_4.index t 1 * 1024 ≤ (i 1).val ∧ (i 1).val < win0_4.index t 1 * 1024 + 1024; rw [hi.2.1]; omega
  | ⟨2, _⟩ => show win0_4.index t 2 * 576 ≤ (i 2).val ∧ (i 2).val < win0_4.index t 2 * 576 + 576; rw [hi.2.2]; omega

/-- So the flat result array ends holding the specification. -/
theorem final (c : Dev nD) (hMK : ∀ b ch j, mkf m c (ix3 b ch j) = ((MK b ch j : ℝ) : EReal))
    (hQK : ∀ b ch q, qkf m c (ix3 b ch q) = ((QK b ch q : ℝ) : EReal))
    (hMV : ∀ b ch j, mvf m c (ix3 b ch j) = ((MV b ch j : ℝ) : EReal)) :
    (dats m 0 c).arrAt 4 cfg0.N = outSpec m MK QK MV c :=
  (dats m 0 c).arrAt_eq_of_cover 4 (outSpec m MK QK MV c) (flushed_eq m MK QK MV c hMK hQK hMV) (cover c)

end Result

/-! ## The program's result -/

section Run

/-- The program's result: the image layout of the flat result array. -/
def kout (MK : Fin 4 → Fin 64 → Fin 9216 → ℝ) (QK : Fin 4 → Fin 64 → Fin 576 → ℝ) (MV : Fin 4 → Fin 512 → Fin 9216 → ℝ)
    (c : Dev nD) : Buf (Elt Ideal) ((c : Thread nD τ).loc main_v0) :=
  shapeCast S4x1024x24x24 (outSpec m MK QK MV c) shapeCasts_S4x1024x576_S4x1024x24x24

/-- Its read-out channels. -/
theorem kout_top (MK : Fin 4 → Fin 64 → Fin 9216 → ℝ) (QK : Fin 4 → Fin 64 → Fin 576 → ℝ) (MV : Fin 4 → Fin 512 → Fin 9216 → ℝ)
    (c : Dev nD) (b : Fin 4) (ch : Fin 512) (y x : Fin 24) :
    kout m MK QK MV c (ix4 b (topCh ch) y x)
      = ((readout (fun j => sc (fun c' => MK b c' j) (fun c' => QK b c' (pix y x))) (fun j => MV b ch j) : ℝ) : EReal) := by
  unfold kout
  rw [Cert.Reshape.image_of_flat, outSpec_top]
  rfl

/-- Its copied channels: the query values, in their own image layout. -/
theorem kout_bot (MK : Fin 4 → Fin 64 → Fin 9216 → ℝ) (QK : Fin 4 → Fin 64 → Fin 576 → ℝ) (MV : Fin 4 → Fin 512 → Fin 9216 → ℝ)
    (c : Dev nD) (b : Fin 4) (ch : Fin 512) (y x : Fin 24) :
    kout m MK QK MV c (ix4 b (botCh ch) y x) = m ((c : Thread nD τ).loc main_arg3) (ix4 b ch y x) := by
  unfold kout
  rw [Cert.Reshape.image_of_flat, outSpec_bot, qvf_eq]
  exact Cert.Reshape.flat_of_image _ _ b ch y x

/-- After the region the one remaining host operation lays the flat result array out as an image. -/
theorem tail_eq (MK : Fin 4 → Fin 64 → Fin 9216 → ℝ) (QK : Fin 4 → Fin 64 → Fin 576 → ℝ) (MV : Fin 4 → Fin 512 → Fin 9216 → ℝ)
    (c : Dev nD) (hMK : ∀ b ch j, mkf m c (ix3 b ch j) = ((MK b ch j : ℝ) : EReal))
    (hQK : ∀ b ch q, qkf m c (ix3 b ch q) = ((QK b ch q : ℝ) : EReal))
    (hMV : ∀ b ch j, mvf m c (ix3 b ch j) = ((MV b ch j : ℝ) : EReal)) :
    Pipeline.afterTail₀ cfgs (dats m) 0 (V0 m) [hostOps1] c main_v0 = kout m MK QK MV c := by
  unfold Pipeline.afterTail₀
  show StableHlo.after hostOps1 _ (Proc.devRef .tc main_v0) = _
  after_results
  erw [Pipeline.withArrays_arr (cfgs 0).spec launch0.win.arr_inj c (V0 m c) (fun w => (dats m 0 c).arrAt w (cfgs 0).N) 4]
  erw [final m MK QK MV c hMK hQK hMV]
  rfl

/-- Inputs that hold reals have flattened layouts that hold reals: name them. -/
theorem exists_reals (c : Dev nD)
    (h0 : ∀ i, ∃ r : ℝ, m ((c : Thread nD τ).loc main_arg0) i = (r : EReal))
    (h1 : ∀ i, ∃ r : ℝ, m ((c : Thread nD τ).loc main_arg1) i = (r : EReal))
    (h2 : ∀ i, ∃ r : ℝ, m ((c : Thread nD τ).loc main_arg2) i = (r : EReal)) :
    ∃ (MK : Fin 4 → Fin 64 → Fin 9216 → ℝ) (QK : Fin 4 → Fin 64 → Fin 576 → ℝ) (MV : Fin 4 → Fin 512 → Fin 9216 → ℝ),
      (∀ b ch j, mkf m c (ix3 b ch j) = ((MK b ch j : ℝ) : EReal))
      ∧ (∀ b ch q, qkf m c (ix3 b ch q) = ((QK b ch q : ℝ) : EReal))
      ∧ (∀ b ch j, mvf m c (ix3 b ch j) = ((MV b ch j : ℝ) : EReal)) := by
  have k0 : ∀ j, ∃ r : ℝ, mkf m c j = (r : EReal) := by rw [mkf_eq]; exact Cert.Reshape.cast_real _ _ h0
  have k1 : ∀ j, ∃ r : ℝ, qkf m c j = (r : EReal) := by rw [qkf_eq]; exact Cert.Reshape.cast_real _ _ h1
  have k2 : ∀ j, ∃ r : ℝ, mvf m c j = (r : EReal) := by rw [mvf_eq]; exact Cert.Reshape.cast_real _ _ h2
  exact ⟨fun b ch j => Classical.choose (k0 (ix3 b ch j)), fun b ch q => Classical.choose (k1 (ix3 b ch q)),
    fun b ch j => Classical.choose (k2 (ix3 b ch j)),
    fun b ch j => Classical.choose_spec (k0 (ix3 b ch j)), fun b ch q => Classical.choose_spec (k1 (ix3 b ch q)),
    fun b ch j => Classical.choose_spec (k2 (ix3 b ch j))⟩

/-- The run, read: the result at the image layout of the specification, the four arguments unchanged. -/
theorem run (MK : Dev nD → Fin 4 → Fin 64 → Fin 9216 → ℝ) (QK : Dev nD → Fin 4 → Fin 64 → Fin 576 → ℝ) (MV : Dev nD → Fin 4 → Fin 512 → Fin 9216 → ℝ)
    (hMK : ∀ c b ch j, mkf m c (ix3 b ch j) = ((MK c b ch j : ℝ) : EReal))
    (hQK : ∀ c b ch q, qkf m c (ix3 b ch q) = ((QK c b ch q : ℝ) : EReal))
    (hMV : ∀ c b ch j, mvf m c (ix3 b ch j) = ((MV c b ch j : ℝ) : EReal)) :
    θ_run defs (onTc (τ := τ) (main (F := Ideal))) ⟨m, fun _ => 0, ρ⟩ fun r => ∀ c : Dev nD,
      r.2.mem ((c.tc : Thread nD τ).loc main_v0) = kout m (MK c) (QK c) (MV c) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0 (Pipeline.mem_restRefs_of main_v0 (by decide) (by decide))).trans
        (tail_eq m (MK c) (QK c) (MV c) c (hMK c) (hQK c) (hMV c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Run

end Cert.KernelIdeal.Value

end
-- ==== Proof.RefValue.lean ====
/-
  The dense reference's result, read entry by entry on the extended reals.

  The reference flattens keys and values over the 9216 memory tokens and the 576 pixels, scores every token
  against every pixel, subtracts each pixel's maximum score, exponentiates, divides by the pixel's sum, contracts
  the normalized weights with the memory values, restores the 24 × 24 image layout and concatenates the query
  values beside it. When the flattened inputs hold reals its entry at channel `ch < 512`, pixel (y, x) is the
  softmax read-out of value row `ch` under the scores of pixel 24·y + x; at channel `512 + ch` it is the query
  value itself.
-/
import proofs.«164901_g25348896981519_cont_9to1_2299_2_alg».proof.Proof.Gen.ReferenceIdeal.Read
import proofs.«164901_g25348896981519_cont_9to1_2299_2_alg».proof.Proof.Softmax
import proofs.«164901_g25348896981519_cont_9to1_2299_2_alg».proof.Proof.Consts
import proofs.«164901_g25348896981519_cont_9to1_2299_2_alg».proof.Proof.Layout
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read
open Cert.Softmax Cert.Layout

/-- The score of token `k` against pixel `q` in batch `b`: twice the inner product less the squared norm, over 8. -/
private theorem score_eq (x0 : (⟨S4x64x16x24x24, .f32⟩ : BufTy).Contents (Elt Ideal)) (x1 : (⟨S4x64x24x24, .f32⟩ : BufTy).Contents (Elt Ideal))
    (MK : Fin 4 → Fin 64 → Fin 9216 → ℝ) (QK : Fin 4 → Fin 64 → Fin 576 → ℝ)
    (hMK : ∀ b c j, val_main_v0 (F := Ideal) x0 (ix3 b c j) = ((MK b c j : ℝ) : EReal))
    (hQK : ∀ b c q, val_main_v1 (F := Ideal) x1 (ix3 b c q) = ((QK b c q : ℝ) : EReal))
    (b : Fin 4) (k : Fin 9216) (q : Fin 576) :
    val_main_v11 (F := Ideal) x0 x1 (ix3 b k q) = ((sc (fun c => MK b c k) (fun c => QK b c q) : ℝ) : EReal) := by
  have e5l : ∀ c : Fin 64, lidx_main_v5 (ix3 b k q) c = ix3 b c k := fun c => funext fun a => by
    match a with | ⟨0, _⟩ => rfl | ⟨1, _⟩ => rfl | ⟨2, _⟩ => rfl
  have e5r : ∀ c : Fin 64, ridx_main_v5 (ix3 b k q) c = ix3 b c q := fun c => funext fun a => by
    match a with | ⟨0, _⟩ => rfl | ⟨1, _⟩ => rfl | ⟨2, _⟩ => rfl
  have e3 : ∀ c : Fin 64, idx_main_v3 (idx_main_v4 (idx_main_v8 (ix3 b k q))) c = ix3 b c k := fun c => funext fun a => by
    match a with | ⟨0, _⟩ => rfl | ⟨1, _⟩ => rfl | ⟨2, _⟩ => rfl
  rw [val_main_v11_apply, val_main_v9_apply, val_main_v7_apply, val_main_v6_apply, val_main_cst_0_apply,
    val_main_v5_apply, val_main_v8_apply, val_main_v4_apply, val_main_v3_apply, val_main_cst_apply,
    val_main_v10_apply, val_main_cst_1_apply]
  simp only [val_main_v2_apply, e5l, e5r, e3, hMK, hQK, Ideal.hostDivf_def, Ideal.subf_def, Ideal.mulf_def,
    Ideal.ofBits_def, Cert.Consts.ofBits_two, Cert.Consts.ofBits_eight, Cert.Consts.ofBits_zero]
  exact sc_dense (fun c => MK b c k) (fun c => QK b c q)

/-- The reduced index (b, q) with token `k` put back on the dropped axis is (b, k, q). -/
private theorem lift_ix3 (h : S4x9216x576.Reduces [1] S4x576) (b : Fin 4) (q : Fin 576) (k : Fin (S4x9216x576.size 1)) :
    h.lift (ix2 b q) k = ix3 b (⟨k.val, k.isLt⟩ : Fin 9216) q := by
  funext c; apply Fin.ext
  fin_cases c <;> rfl

/-- The maximum-reduce over the token axis, from −∞, is the fold of `max` from `⊥` over the tokens' scores. -/
private theorem v12_eq (x0 : (⟨S4x64x16x24x24, .f32⟩ : BufTy).Contents (Elt Ideal)) (x1 : (⟨S4x64x24x24, .f32⟩ : BufTy).Contents (Elt Ideal))
    (b : Fin 4) (q : Fin 576) :
    val_main_v12 (F := Ideal) x0 x1 (ix2 b q)
      = Finset.univ.fold max (⊥ : EReal) (fun k : Fin 9216 => val_main_v11 (F := Ideal) x0 x1 (ix3 b k q)) := by
  have h : S4x9216x576.Reduces [1] S4x576 := by decide
  unfold val_main_v12
  rw [Host.reduce_eq_fold_single FloatOps.maximumf _ _ reducesTo_S4x9216x576_S4x576_d1 h h_S_]
  have hf : (val_main_v11 (F := Ideal) x0 x1 ∘ h.lift (ix2 b q))
      = fun k : Fin 9216 => val_main_v11 (F := Ideal) x0 x1 (ix3 b k q) :=
    funext fun k => congrArg (val_main_v11 (F := Ideal) x0 x1) (lift_ix3 h b q k)
  refine Eq.trans ?_ (congrArg (fun f => Finset.fold max (⊥ : EReal) f (Finset.univ : Finset (Fin 9216))) hf)
  have hbot : val_main_cst_2 (F := Ideal) (Shape.Idx.first h_S_) = (⊥ : EReal) := Cert.Consts.ofBits_neg_inf
  rw [hbot]
  rfl

/-- The exponentiated shifted score of token `k` at pixel `q`. -/
private theorem v16_eq (x0 : (⟨S4x64x16x24x24, .f32⟩ : BufTy).Contents (Elt Ideal)) (x1 : (⟨S4x64x24x24, .f32⟩ : BufTy).Contents (Elt Ideal))
    (b : Fin 4) (k : Fin 9216) (q : Fin 576) :
    val_main_v16 (F := Ideal) x0 x1 (ix3 b k q)
      = Ideal.exp (val_main_v11 (F := Ideal) x0 x1 (ix3 b k q)
          - Finset.univ.fold max (⊥ : EReal) (fun k' : Fin 9216 => val_main_v11 (F := Ideal) x0 x1 (ix3 b k' q))) := by
  have e : idx_main_v13 (idx_main_v14 (ix3 b k q)) = ix2 b q := funext fun a => by
    match a with | ⟨0, _⟩ => rfl | ⟨1, _⟩ => rfl
  rw [val_main_v16_apply, val_main_v15_apply, val_main_v14_apply, val_main_v13_apply, e, v12_eq]
  rfl

/-- The normalized weight of token `k` at pixel `q`: its exponential over the sum, from zero, of all the tokens'. -/
private theorem v20_eq (x0 : (⟨S4x64x16x24x24, .f32⟩ : BufTy).Contents (Elt Ideal)) (x1 : (⟨S4x64x24x24, .f32⟩ : BufTy).Contents (Elt Ideal))
    (b : Fin 4) (k : Fin 9216) (q : Fin 576) :
    val_main_v20 (F := Ideal) x0 x1 (ix3 b k q)
      = Ideal.div (val_main_v16 (F := Ideal) x0 x1 (ix3 b k q))
          ((0 : EReal) + ∑ k' : Fin 9216, val_main_v16 (F := Ideal) x0 x1 (ix3 b k' q)) := by
  have e : idx_main_v18 (idx_main_v19 (ix3 b k q)) = ix2 b q := funext fun a => by
    match a with | ⟨0, _⟩ => rfl | ⟨1, _⟩ => rfl
  have e17 : ∀ k' : Fin 9216, idx_main_v17 (ix2 b q) k' = ix3 b k' q := fun k' => funext fun a => by
    match a with | ⟨0, _⟩ => rfl | ⟨1, _⟩ => rfl | ⟨2, _⟩ => rfl
  rw [val_main_v20_apply, val_main_v19_apply, val_main_v18_apply, e, val_main_v17_apply, val_main_cst_3_apply]
  simp only [e17, Ideal.hostDivf_def, Ideal.ofBits_def, Cert.Consts.ofBits_zero]

/-- The read-out channels: with the flattened keys, queries and values real, the entry is the softmax read-out. -/
theorem ref_top (x0 : (⟨S4x64x16x24x24, .f32⟩ : BufTy).Contents (Elt Ideal)) (x1 : (⟨S4x64x24x24, .f32⟩ : BufTy).Contents (Elt Ideal))
    (x2 : (⟨S4x512x16x24x24, .f32⟩ : BufTy).Contents (Elt Ideal)) (x3 : (⟨S4x512x24x24, .f32⟩ : BufTy).Contents (Elt Ideal))
    (MK : Fin 4 → Fin 64 → Fin 9216 → ℝ) (QK : Fin 4 → Fin 64 → Fin 576 → ℝ) (MV : Fin 4 → Fin 512 → Fin 9216 → ℝ)
    (hMK : ∀ b c j, val_main_v0 (F := Ideal) x0 (ix3 b c j) = ((MK b c j : ℝ) : EReal))
    (hQK : ∀ b c q, val_main_v1 (F := Ideal) x1 (ix3 b c q) = ((QK b c q : ℝ) : EReal))
    (hMV : ∀ b c j, val_main_v21 (F := Ideal) x2 (ix3 b c j) = ((MV b c j : ℝ) : EReal))
    (b : Fin 4) (ch : Fin 512) (y x : Fin 24) :
    val_main_v24 (F := Ideal) x0 x1 x2 x3 (ix4 b (topCh ch) y x)
      = ((readout (fun j => sc (fun c => MK b c j) (fun c => QK b c (pix y x))) (fun j => MV b ch j) : ℝ) : EReal) := by
  haveI : Nonempty (Fin 9216) := ⟨⟨0, by norm_num⟩⟩
  have hb := b.isLt
  have hch := ch.isLt
  have hy := y.isLt
  have hx := x.isLt
  have e23 : idx_main_v23 (ix4 b (ch : Fin 512) y x) = ix3 b ch (pix y x) := funext fun a => Fin.ext (by
    match a with
    | ⟨0, _⟩ =>
      show (((b.val * 512 + ch.val) * 24 + y.val) * 24 + x.val) / 294912 = b.val
      omega
    | ⟨1, _⟩ =>
      show (((b.val * 512 + ch.val) * 24 + y.val) * 24 + x.val) / 576 % 512 = ch.val
      omega
    | ⟨2, _⟩ =>
      show (((b.val * 512 + ch.val) * 24 + y.val) * 24 + x.val) % 576 = 24 * y.val + x.val
      omega)
  have el : ∀ k : Fin 9216, lidx_main_v22 (ix3 b ch (pix y x)) k = ix3 b ch k := fun k => funext fun a => by
    match a with | ⟨0, _⟩ => rfl | ⟨1, _⟩ => rfl | ⟨2, _⟩ => rfl
  have er : ∀ k : Fin 9216, ridx_main_v22 (ix3 b ch (pix y x)) k = ix3 b k (pix y x) := fun k => funext fun a => by
    match a with | ⟨0, _⟩ => rfl | ⟨1, _⟩ => rfl | ⟨2, _⟩ => rfl
  unfold val_main_v24
  rw [concatenate_pair_apply_left 1 _ _ concatenates_S4x512x24x24_S4x512x24x24_S4x1024x24x24_d1
    (ix4 b (topCh ch) y x) rfl (ix4 b ch y x) (fun a => by
      match a with | ⟨0, _⟩ => rfl | ⟨1, _⟩ => rfl | ⟨2, _⟩ => rfl | ⟨3, _⟩ => rfl)]
  rw [val_main_v23_apply, e23, val_main_v22_apply]
  simp only [el, er, hMV, v20_eq, v16_eq, score_eq x0 x1 MK QK hMK hQK]
  exact dense_readout (fun j => sc (fun c => MK b c j) (fun c => QK b c (pix y x))) (fun j => MV b ch j)

/-- The copied channels: the query value itself. -/
theorem ref_bot (x0 : (⟨S4x64x16x24x24, .f32⟩ : BufTy).Contents (Elt Ideal)) (x1 : (⟨S4x64x24x24, .f32⟩ : BufTy).Contents (Elt Ideal))
    (x2 : (⟨S4x512x16x24x24, .f32⟩ : BufTy).Contents (Elt Ideal)) (x3 : (⟨S4x512x24x24, .f32⟩ : BufTy).Contents (Elt Ideal))
    (b : Fin 4) (ch : Fin 512) (y x : Fin 24) :
    val_main_v24 (F := Ideal) x0 x1 x2 x3 (ix4 b (botCh ch) y x) = x3 (ix4 b ch y x) := by
  unfold val_main_v24
  exact concatenate_pair_apply_right 1 _ _ concatenates_S4x512x24x24_S4x512x24x24_S4x1024x24x24_d1 _ rfl rfl _
    (fun a ha => by
      match a with
      | ⟨0, _⟩ => rfl
      | ⟨1, _⟩ => exact absurd rfl ha
      | ⟨2, _⟩ => rfl
      | ⟨3, _⟩ => rfl)
    (by show ch.val + 512 = 512 + ch.val; omega)

end Cert.ReferenceIdeal.RefValue

end
-- ==== Proof.Finite.lean ====
/-
  The precondition read: when the finiteness predicate of the four inputs is all ones, every entry of the memory
  keys, the query keys and the memory values is a real number (not +∞ or −∞).

  The predicate is the conjunction, over the four arrays, of "every |entry| < +∞"; an extended real whose absolute
  value is below the top element is the coercion of a real.
-/
import proofs.«164901_g25348896981519_cont_9to1_2299_2_alg».proof.Pre_finite_inputs
import proofs.«164901_g25348896981519_cont_9to1_2299_2_alg».proof.Proof.Gen.Pre_finite_inputs
import Idealize.ShloMosaic.Lib.ReduceAll
import Idealize.ShloMosaic.PureOps.Ideal
import Idealize.ShloMosaic.PureOps.Ideal.Laws

noncomputable section

namespace Cert.Finite

open Idealize.ShloMosaic Cert.Pre_finite_inputs

/-- The result of a reduction over all axes has exactly one index. -/
private instance : Subsingleton S_.Idx := ⟨fun a b => funext fun d => d.elim0⟩

/-- The word `0x7F800000` denotes the top element `+∞`. -/
private theorem inf_word : Ideal.ofBits .f32 0x7F800000#32 = (⊤ : EReal) := by
  simp [Ideal.ofBits, Ideal.ieee]

/-- An extended real `x` with `|x| = max x (-x)` strictly below `+∞` is neither `+∞` nor `−∞`, hence the coercion of a real. -/
private theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- Under the precondition the first three inputs hold reals. -/
theorem real_of_pre [Cert.Pre_finite_inputs.Facts]
    (a0 : FVec Ideal S4x64x16x24x24 .f32) (a1 : FVec Ideal S4x64x24x24 .f32)
    (a2 : FVec Ideal S4x512x16x24x24 .f32) (a3 : FVec Ideal S4x512x24x24 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) := by
  -- the predicate at its one index: ((p0 ∧ p1) ∧ p2) ∧ p3, each `p` an "all" over one array
  have h0 := congrFun h (fun d => d.elim0)
  dsimp only [fn, fn_part1, andi] at h0
  obtain ⟨h012, -⟩ := IntOp.andi_eq_one.1 h0
  obtain ⟨h01, hp2⟩ := IntOp.andi_eq_one.1 h012
  obtain ⟨hp0, hp1⟩ := IntOp.andi_eq_one.1 h01
  refine ⟨fun i => ?_, fun i => ?_, fun i => ?_⟩
  · -- every entry of the first array compares below `+∞` in absolute value
    have e := Host.reduce_andi_all _ _ _ _ _ hp0 i
    exact real_of_abs_lt_inf (a0 i) e
  · have e := Host.reduce_andi_all _ _ _ _ _ hp1 i
    exact real_of_abs_lt_inf (a1 i) e
  · have e := Host.reduce_andi_all _ _ _ _ _ hp2 i
    exact real_of_abs_lt_inf (a2 i) e

end Cert.Finite

end
-- ==== Proof.lean ====
/-
  The five claims about the streamed softmax read-out kernel and its dense reference.

  The kernel streams the 9216 memory tokens of each batch in four chunks, keeping per pixel a running maximum, a
  running denominator and per value channel a running numerator of the softmax read-out, and divides at the last
  chunk; the reference forms the whole score matrix, subtracts each pixel's maximum, normalizes and contracts. Over
  the extended reals, with every key and value a real number (the precondition), both are the same function: the
  read-out (∑ⱼ V j · e^{S j}) / (∑ⱼ e^{S j}) of each value row under the scores S j = (2·⟨key j, query⟩ − |key j|²)/8
  in channels 0…511, and the query values in channels 512…1023. The shift by a maximum — whichever real it is —
  cancels between numerator and denominator; the kernel's factor 1/8 is the reference's quotient by 8.

  The frames of the two kernel programs are the generated ones; the reference's frame is its generated run with the
  result dropped; the idealization rewrote nothing.
-/
import proofs.«164901_g25348896981519_cont_9to1_2299_2_alg».proof.Defs
import proofs.«164901_g25348896981519_cont_9to1_2299_2_alg».proof.Proof.Gen.Kernel
import proofs.«164901_g25348896981519_cont_9to1_2299_2_alg».proof.Proof.Gen.Kernel.Skeleton
import proofs.«164901_g25348896981519_cont_9to1_2299_2_alg».proof.Proof.Gen.Kernel.Launch
import proofs.«164901_g25348896981519_cont_9to1_2299_2_alg».proof.Proof.Gen.Kernel.Points
import proofs.«164901_g25348896981519_cont_9to1_2299_2_alg».proof.Proof.Gen.Kernel.Frame
import proofs.«164901_g25348896981519_cont_9to1_2299_2_alg».proof.Proof.Gen.KernelIdeal
import proofs.«164901_g25348896981519_cont_9to1_2299_2_alg».proof.Proof.Gen.KernelIdeal.Skeleton
import proofs.«164901_g25348896981519_cont_9to1_2299_2_alg».proof.Proof.Gen.KernelIdeal.Launch
import proofs.«164901_g25348896981519_cont_9to1_2299_2_alg».proof.Proof.Gen.KernelIdeal.Points
import proofs.«164901_g25348896981519_cont_9to1_2299_2_alg».proof.Proof.Gen.KernelIdeal.Frame
import proofs.«164901_g25348896981519_cont_9to1_2299_2_alg».proof.Proof.Gen.ReferenceIdeal
import proofs.«164901_g25348896981519_cont_9to1_2299_2_alg».proof.Proof.Gen.Pre_finite_inputs
import proofs.«164901_g25348896981519_cont_9to1_2299_2_alg».proof.Proof.Gen.ReferenceIdeal.Run
import proofs.«164901_g25348896981519_cont_9to1_2299_2_alg».proof.Proof.Gen.ReferenceIdeal.Read
import proofs.«164901_g25348896981519_cont_9to1_2299_2_alg».proof.Proof.KernelValue
import proofs.«164901_g25348896981519_cont_9to1_2299_2_alg».proof.Proof.RefValue
import proofs.«164901_g25348896981519_cont_9to1_2299_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.Layout Cert.Softmax

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at the same array: entry by entry the softmax read-out, or the query value. -/
theorem algebraic : Cert.algebraic_KernelIdeal_ReferenceIdeal := by
  intro m ρ m' ρ' hpre hagree
  have hfin := fun c => Cert.Finite.real_of_pre _ _ _ _ (hpre c)
  choose MK QK MV hMK hQK hMV using fun c =>
    Cert.KernelIdeal.Value.exists_reals m c (hfin c).1 (hfin c).2.1 (hfin c).2.2
  refine ⟨fun c => Cert.KernelIdeal.Value.kout m (MK c) (QK c) (MV c) c,
    Cert.KernelIdeal.Value.run m ρ MK QK MV hMK hQK hMV, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2]
  show _ = Cert.KernelIdeal.Value.kout m (MK c) (QK c) (MV c) c
  funext i
  obtain ⟨b, k, y, x, rfl⟩ : ∃ (b : Fin 4) (k : Fin 1024) (y x : Fin 24), i = ix4 b k y x := ⟨i 0, i 1, i 2, i 3, eq_ix4 i⟩
  rcases ch_cases k with ⟨ch, rfl⟩ | ⟨ch, rfl⟩
  · rw [Cert.KernelIdeal.Value.kout_top]
    exact Cert.ReferenceIdeal.RefValue.ref_top _ _ _ _ (MK c) (QK c) (MV c)
      (fun b' c' j => (congrFun (Cert.KernelIdeal.Value.mkf_eq m c).symm _).trans (hMK c b' c' j))
      (fun b' c' q => (congrFun (Cert.KernelIdeal.Value.qkf_eq m c).symm _).trans (hQK c b' c' q))
      (fun b' c' j => (congrFun (Cert.KernelIdeal.Value.mvf_eq m c).symm _).trans (hMV c b' c' j)) b ch y x
  · rw [Cert.KernelIdeal.Value.kout_bot]
    exact Cert.ReferenceIdeal.RefValue.ref_bot _ _ _ _ b ch y x

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
